-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8x512 : Shape := ⟨3, ![8192, 8, 512]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8x512 : S_.BroadcastsInDim S8192x8x512 (![] : Fin 0 → Fin S8192x8x512.rank)
  reducesTo_S8192x8x512_S_d0_1_2 : S8192x8x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_arg18 : FVec F S512 .f32) (main_v83 : IVec S_ 1) (main_v84 : FVec F S512x512 .f32) (main_cst_32 : FVec F S_ .f32) : IVec S_ 1 :=
  let main_v85 : FVec F S512x512 .f32 := broadcastInDim S512x512 ![] bcast_S_S512x512 main_cst_32
  let main_v86 : IVec S512x512 1 := cmpf .olt main_v84 main_v85
  let main_c_33 : IVec S_ 1 := constantI S_ 1 1#1
  let main_v87 : IVec S_ 1 := (fun x v => Host.reduce IntOp.andi x v reducesTo_S512x512_S_d0_1 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  main_v93

def fn_part4 {F : FTy → Type} [FloatOps F] (main_arg14 : FVec F S512 .f32) (main_arg15 : FVec F S512x512 .f32) (main_arg16 : FVec F S512 .f32) (main_arg17 : FVec F S512x512 .f32) (main_arg18 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x512 .f32 := Host.absf main_arg15
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512x512 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg14 main_arg15 main_arg16 main_arg17 main_arg18 main_v63 main_v67

def fn_part2 {F : FTy → Type} [FloatOps F] (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_arg18 main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x512 .f32) (main_arg1 : FVec F S8192x8x512 .f32) (main_arg2 : FVec F S8192x8x512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8x512 .f32 := Host.absf main_arg1
  let main_cst_0 : FVec F S_ .f32 := constant S_ .f32 0x7F800000#32
  let main_v5 : FVec F S8192x8x512 .f32 := broadcastInDim S8192x8x512 ![] bcast_S_S8192x8x512 main_cst_0
  let main_v6 : IVec S8192x8x512 1 := cmpf .olt main_v4 main_v5
  let main_c_1 : IVec S_ 1 := constantI S_ 1 1#1
  let main_v7 : IVec S_ 1 := (fun x v => Host.reduce IntOp.andi x v reducesTo_S8192x8x512_S_d0_1_2 h_S_) main_v6 main_c_1
  let main_v8 : IVec S_ 1 := andi main_v3 main_v7
  let main_v9 : FVec F S8192x8x512 .f32 := Host.absf main_arg2
  let main_cst_2 : FVec F S_ .f32 := constant S_ .f32 0x7F800000#32
  let main_v10 : FVec F S8192x8x512 .f32 := broadcastInDim S8192x8x512 ![] bcast_S_S8192x8x512 main_cst_2
  let main_v11 : IVec S8192x8x512 1 := cmpf .olt main_v9 main_v10
  let main_c_3 : IVec S_ 1 := constantI S_ 1 1#1
  let main_v12 : IVec S_ 1 := (fun x v => Host.reduce IntOp.andi x v reducesTo_S8192x8x512_S_d0_1_2 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x512 : Shape := ⟨2, ![8192, 512]⟩
abbrev S8192x8x512 : Shape := ⟨3, ![8192, 8, 512]⟩
abbrev S512x512 : Shape := ⟨2, ![512, 512]⟩
abbrev S512 : Shape := ⟨1, ![512]⟩
abbrev S128x512 : Shape := ⟨2, ![128, 512]⟩
abbrev S128x8x512 : Shape := ⟨3, ![128, 8, 512]⟩
abbrev S1x512 : Shape := ⟨2, ![1, 512]⟩
abbrev S1024x512 : Shape := ⟨2, ![1024, 512]⟩
abbrev S128x1x512 : Shape := ⟨3, ![128, 1, 512]⟩
abbrev S1x1x512 : Shape := ⟨3, ![1, 1, 512]⟩
abbrev S1x8192x512 : Shape := ⟨3, ![1, 8192, 512]⟩
abbrev S2x8192x512 : Shape := ⟨3, ![2, 8192, 512]⟩

abbrev nBuf : Space → Nat
  | .hbm => 24
  | .vmem => 26
  | .smem => 0
  | _ => 0

abbrev bufTy : (tb : Table) → Fin (tcTables nBuf tb) → BufTy
  | .hbm, ⟨0, _⟩ => ⟨S8192x512, .f32⟩
  | .hbm, ⟨1, _⟩ => ⟨S8192x8x512, .f32⟩
  | .hbm, ⟨2, _⟩ => ⟨S8192x8x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S8192x512, .f32⟩
  | .hbm, ⟨20, _⟩ => ⟨S8192x512, .f32⟩
  | .hbm, ⟨21, _⟩ => ⟨S1x8192x512, .f32⟩
  | .hbm, ⟨22, _⟩ => ⟨S1x8192x512, .f32⟩
  | .hbm, ⟨23, _⟩ => ⟨S2x8192x512, .f32⟩
  | .local _ .vmem, ⟨0, _⟩ => ⟨S128x512, .f32⟩
  | .local _ .vmem, ⟨1, _⟩ => ⟨S128x512, .f32⟩
  | .local _ .vmem, ⟨2, _⟩ => ⟨S128x8x512, .f32⟩
  | .local _ .vmem, ⟨3, _⟩ => ⟨S128x8x512, .f32⟩
  | .local _ .vmem, ⟨4, _⟩ => ⟨S128x8x512, .f32⟩
  | .local _ .vmem, ⟨5, _⟩ => ⟨S128x8x512, .f32⟩
  | .local _ .vmem, ⟨6, _⟩ => ⟨S512x512, .f32⟩
  | .local _ .vmem, ⟨7, _⟩ => ⟨S512, .f32⟩
  | .local _ .vmem, ⟨8, _⟩ => ⟨S512x512, .f32⟩
  | .local _ .vmem, ⟨9, _⟩ => ⟨S512, .f32⟩
  | .local _ .vmem, ⟨10, _⟩ => ⟨S512x512, .f32⟩
  | .local _ .vmem, ⟨11, _⟩ => ⟨S512, .f32⟩
  | .local _ .vmem, ⟨12, _⟩ => ⟨S512x512, .f32⟩
  | .local _ .vmem, ⟨13, _⟩ => ⟨S512, .f32⟩
  | .local _ .vmem, ⟨14, _⟩ => ⟨S512x512, .f32⟩
  | .local _ .vmem, ⟨15, _⟩ => ⟨S512, .f32⟩
  | .local _ .vmem, ⟨16, _⟩ => ⟨S512x512, .f32⟩
  | .local _ .vmem, ⟨17, _⟩ => ⟨S512, .f32⟩
  | .local _ .vmem, ⟨18, _⟩ => ⟨S512x512, .f32⟩
  | .local _ .vmem, ⟨19, _⟩ => ⟨S512, .f32⟩
  | .local _ .vmem, ⟨20, _⟩ => ⟨S512x512, .f32⟩
  | .local _ .vmem, ⟨21, _⟩ => ⟨S512, .f32⟩
  | .local _ .vmem, ⟨22, _⟩ => ⟨S128x512, .f32⟩
  | .local _ .vmem, ⟨23, _⟩ => ⟨S128x512, .f32⟩
  | .local _ .vmem, ⟨24, _⟩ => ⟨S128x512, .f32⟩
  | .local _ .vmem, ⟨25, _⟩ => ⟨S128x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0_0 : Ref sig .tc := ⟨.hbm, 19, rfl⟩
abbrev main_v0_1 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23
abbrev cc0_sem20_0 : DmaSem sig := 24
abbrev cc0_sem20_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S128x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S128x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  inb_S128x512_S128x512_0_0 : ∀ a, (![0, 0] : Fin 2 → Nat) a + S128x512.size a ≤ S128x512.size a
  h_S128x512 : 0 < S128x512.numel
  inb_S128x8x512_S128x8x512_0_0_0 : ∀ a, (![0, 0, 0] : Fin 3 → Nat) a + S128x8x512.size a ≤ S128x8x512.size a
  h_S128x8x512 : 0 < S128x8x512.numel
  reduces_S128x8x512_S128x512 : S128x8x512.Reduces [1] S128x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  shapeCasts_S128x8x512_S1024x512 : S128x8x512.ShapeCasts S1024x512
  shapeCasts_S1024x512_S128x8x512 : S1024x512.ShapeCasts S128x8x512
  shapeCasts_S128x512_S128x1x512 : S128x512.ShapeCasts S128x1x512
  broadcasts_S128x1x512_S128x8x512 : S128x1x512.Broadcasts S128x8x512
  shapeCasts_S512_S1x1x512 : S512.ShapeCasts S1x1x512
  broadcasts_S1x1x512_S128x8x512 : S1x1x512.Broadcasts S128x8x512
  bcast_S8192x512_S1x8192x512_1_2 : S8192x512.BroadcastsInDim S1x8192x512 (![1, 2] : Fin 2 → Fin S1x8192x512.rank)
  concatenates_S1x8192x512_S1x8192x512_S2x8192x512_d0 : Shape.Concatenates [S1x8192x512, S1x8192x512] S2x8192x512 0
  dot_S128x512_S512x512_S128x512_1_0_0_1_n_n_wf : DotDims.WF S128x512 S512x512 S128x512 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S8192x512.size a
  hwx0_0 : ∀ i : grid0.Coords, EltTy.bits .f32 = 32 ∨ (Rect.block (s := S8192x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8x512.size a ≤ S8192x8x512.size a
  hwx0_1 : ∀ i : grid0.Coords, EltTy.bits .f32 = 32 ∨ (Rect.block (s := S8192x8x512) S128x8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8x512.size a ≤ S8192x8x512.size a
  hwx0_2 : ∀ i : grid0.Coords, EltTy.bits .f32 = 32 ∨ (Rect.block (s := S8192x8x512) S128x8x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .f32 = 32 ∨ (Rect.block (s := S512x512) S512x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .f32 = 32 ∨ (Rect.block (s := S512x512) S512x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S512x512.size a
  hwx0_13 : ∀ i : grid0.Coords, EltTy.bits .f32 = 32 ∨ (Rect.block (s := S512x512) S512x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512.size a ≤ S512.size a
  hwx0_14 : ∀ i : grid0.Coords, EltTy.bits .f32 = 32 ∨ (Rect.block (s := S512) S512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512x512.size a ≤ S512x512.size a
  hwx0_15 : ∀ i : grid0.Coords, EltTy.bits .f32 = 32 ∨ (Rect.block (s := S512x512) S512x512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512.size a ≤ S512.size a
  hwx0_16 : ∀ i : grid0.Coords, EltTy.bits .f32 = 32 ∨ (Rect.block (s := S512) S512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512x512.size a ≤ S512x512.size a
  hwx0_17 : ∀ i : grid0.Coords, EltTy.bits .f32 = 32 ∨ (Rect.block (s := S512x512) S512x512.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512.size a ≤ S512.size a
  hwx0_18 : ∀ i : grid0.Coords, EltTy.bits .f32 = 32 ∨ (Rect.block (s := S512) S512.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S128x512.size a ≤ S8192x512.size a
  hwx0_19 : ∀ i : grid0.Coords, EltTy.bits .f32 = 32 ∨ (Rect.block (s := S8192x512) S128x512.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S128x512.size a ≤ S8192x512.size a
  hwx0_20 : ∀ i : grid0.Coords, EltTy.bits .f32 = 32 ∨ (Rect.block (s := S8192x512) S128x512.size (cc0_transform_20 i) (hinb0_20 i)).WholeWords (EltTy.packing .f32)

variable [Facts₀]

def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S512x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S512x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S512x512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v0_0) S128x512.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v0_1) S128x512.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x8x512 : Shape := ⟨3, ![8192, 8, 512]⟩
abbrev S512x512 : Shape := ⟨2, ![512, 512]⟩
abbrev S512 : Shape := ⟨1, ![512]⟩
abbrev S_ : Shape := ⟨0, ![]⟩
abbrev S1x512 : Shape := ⟨2, ![1, 512]⟩
abbrev S8192x1x512 : Shape := ⟨3, ![8192, 1, 512]⟩
abbrev S1x1x512 : Shape := ⟨3, ![1, 1, 512]⟩
abbrev S1x8192x512 : Shape := ⟨3, ![1, 8192, 512]⟩
abbrev S2x8192x512 : Shape := ⟨3, ![2, 8192, 512]⟩

abbrev nBuf : Space → Nat
  | .hbm => 94
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8x512, .f32⟩
  | .hbm, ⟨2, _⟩ => ⟨S8192x8x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S1x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S1x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S1x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S1x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S_, .f32⟩
  | .hbm, ⟨50, _⟩ => ⟨S8192x512, .f32⟩
  | .hbm, ⟨51, _⟩ => ⟨S8192x512, .f32⟩
  | .hbm, ⟨52, _⟩ => ⟨S_, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S1x512, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S1x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S1x512, .f32⟩
  | .hbm, ⟨67, _⟩ => ⟨S8192x512, .f32⟩
  | .hbm, ⟨68, _⟩ => ⟨S8192x512, .f32⟩
  | .hbm, ⟨69, _⟩ => ⟨S8192x1x512, .f32⟩
  | .hbm, ⟨70, _⟩ => ⟨S8192x8x512, .f32⟩
  | .hbm, ⟨71, _⟩ => ⟨S8192x8x512, .f32⟩
  | .hbm, ⟨72, _⟩ => ⟨S8192x8x512, .f32⟩
  | .hbm, ⟨73, _⟩ => ⟨S1x1x512, .f32⟩
  | .hbm, ⟨74, _⟩ => ⟨S8192x8x512, .f32⟩
  | .hbm, ⟨75, _⟩ => ⟨S8192x8x512, .f32⟩
  | .hbm, ⟨76, _⟩ => ⟨S8192x8x512, .f32⟩
  | .hbm, ⟨77, _⟩ => ⟨S8192x8x512, .f32⟩
  | .hbm, ⟨78, _⟩ => ⟨S_, .f32⟩
  | .hbm, ⟨79, _⟩ => ⟨S8192x8x512, .f32⟩
  | .hbm, ⟨80, _⟩ => ⟨S8192x8x512, .f32⟩
  | .hbm, ⟨81, _⟩ => ⟨S_, .f32⟩
  | .hbm, ⟨82, _⟩ => ⟨S8192x8x512, .f32⟩
  | .hbm, ⟨83, _⟩ => ⟨S8192x8x512, .f32⟩
  | .hbm, ⟨84, _⟩ => ⟨S8192x512, .f32⟩
  | .hbm, ⟨85, _⟩ => ⟨S8192x8x512, .f32⟩
  | .hbm, ⟨86, _⟩ => ⟨S_, .f32⟩
  | .hbm, ⟨87, _⟩ => ⟨S8192x512, .f32⟩
  | .hbm, ⟨88, _⟩ => ⟨S8192x512, .f32⟩
  | .hbm, ⟨89, _⟩ => ⟨S8192x512, .f32⟩
  | .hbm, ⟨90, _⟩ => ⟨S8192x512, .f32⟩
  | .hbm, ⟨91, _⟩ => ⟨S1x8192x512, .f32⟩
  | .hbm, ⟨92, _⟩ => ⟨S1x8192x512, .f32⟩
  | .hbm, ⟨93, _⟩ => ⟨S2x8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_0 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_4 : Ref sig .tc := ⟨.hbm, 78, rfl⟩
abbrev main_v54 : Ref sig .tc := ⟨.hbm, 79, rfl⟩
abbrev main_v55 : Ref sig .tc := ⟨.hbm, 80, rfl⟩
abbrev main_cst_5 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_6 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩

abbrev nD : Nat := 1
abbrev τ : Topo := Topo.v7x

variable {F : FTy → Type} [FloatOps F]

class Facts₀ : Prop where
  reducesTo_S8192x8x512_S8192x512_d1 : S8192x8x512.ReducesTo [1] S8192x512
  h_S_ : 0 < S_.numel
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S8192x512_S8192x1x512_0_2 : S8192x512.BroadcastsInDim S8192x1x512 (![0, 2] : Fin 2 → Fin S8192x1x512.rank)
  bcast_S8192x1x512_S8192x8x512_0_1_2 : S8192x1x512.BroadcastsInDim S8192x8x512 (![0, 1, 2] : Fin 3 → Fin S8192x8x512.rank)
  bcast_S512_S1x1x512_2 : S512.BroadcastsInDim S1x1x512 (![2] : Fin 1 → Fin S1x1x512.rank)
  bcast_S1x1x512_S8192x8x512_0_1_2 : S1x1x512.BroadcastsInDim S8192x8x512 (![0, 1, 2] : Fin 3 → Fin S8192x8x512.rank)
  bcast_S_S8192x8x512 : S_.BroadcastsInDim S8192x8x512 (![] : Fin 0 → Fin S8192x8x512.rank)
  bcast_S8192x512_S1x8192x512_1_2 : S8192x512.BroadcastsInDim S1x8192x512 (![1, 2] : Fin 2 → Fin S1x8192x512.rank)
  concatenates_S1x8192x512_S1x8192x512_S2x8192x512_d0 : Shape.Concatenates [S1x8192x512, S1x8192x512] S2x8192x512 0
  dot_S8192x512_S512x512_S8192x512_1_0_0_1_n_n_wf : DotDims.WF S8192x512 S512x512 S8192x512 [1] [0] [0] [1] [] []
  dot_S8192x8x512_S512x512_S8192x8x512_2_0_01_1_n_n_wf : DotDims.WF S8192x8x512 S512x512 S8192x8x512 [2] [0] [0, 1] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x8x512_S512x512_S8192x8x512_2_0_01_1_n_n : DotDims S8192x8x512 S512x512 S8192x8x512 where
  lhsContracting := [2]
  rhsContracting := [0]
  lhsNonContracting := [0, 1]
  rhsNonContracting := [1]
  lhsBatch := []
  rhsBatch := []
  wf := dot_S8192x8x512_S512x512_S8192x8x512_2_0_01_1_n_n_wf

class Facts : Prop extends Facts₀ where

variable [Facts]
-- ==== Proof.Spec.lean ====
/-
  The child-sum tree cell, one node at a time, on the extended reals.

  A node has an input row `x` (512 entries) and eight children, each with a hidden row `h_k` and a memory row `c_k`.
  With `hs = Σ_k h_k`, and for a gate `(W, bW, U, bU)` the affine form
  `lin x r g = ((Σ_d x d · W d g + bW g) + Σ_d r d · U d g) + bU g`, the cell computes
    i = σ (lin_i x hs),  o = σ (lin_o x hs),  u = tanh (lin_u x hs),  f_k = σ (lin_f x h_k),
    c = i · u + Σ_k f_k · c_k,   h = o · tanh c,
  where `σ y = 1 / (1 + e^(-y))`. Everything is stated entry by entry (`g` is the output column), with the sums in
  exactly this association: both programs compute them so, and no law beyond commutativity of the index set is used.
-/
import Idealize.ShloMosaic.PureOps.Ideal.Laws
import Idealize.ShloMosaic.Lib.ValueIdx

noncomputable section

namespace Cert.TreeCell

open Idealize.ShloMosaic Idealize.ShloMosaic.ValueIdx

/-- A 512 × 512 weight matrix. -/
abbrev Mat : Type := FVec Ideal ⟨2, ![512, 512]⟩ .f32
/-- A bias of 512 entries. -/
abbrev Bias : Type := FVec Ideal ⟨1, ![512]⟩ .f32
/-- One node's row. -/
abbrev Row : Type := Fin 512 → EReal
/-- The rows of a node's eight children. -/
abbrev Kids : Type := Fin 8 → Fin 512 → EReal

/-- A gate's parameters: the input weights and bias, the hidden weights and bias. -/
structure Gate where
  W : Mat
  bW : Bias
  U : Mat
  bU : Bias

/-- The sum of the children's rows. -/
def kidsSum (ch : Kids) : Row := fun d => ∑ k : Fin 8, ch k d

/-- A gate's affine form at column `g`: `((x·W + bW) + r·U) + bU`. -/
def Gate.lin (G : Gate) (xr r : Row) (g : Fin 512) : EReal :=
  (((∑ d : Fin 512, xr d * G.W (ix2 d g)) + G.bW (ix1 g)) + ∑ d : Fin 512, r d * G.U (ix2 d g)) + G.bU (ix1 g)

/-- The new memory at column `g`: `i · u + Σ_k f_k · c_k`. -/
def cellC (Gi Gf Gu : Gate) (xr : Row) (ch cc : Kids) (g : Fin 512) : EReal :=
  Ideal.logistic (Gi.lin xr (kidsSum ch) g) * Ideal.tanh (Gu.lin xr (kidsSum ch) g)
    + ∑ k : Fin 8, Ideal.logistic (Gf.lin xr (ch k) g) * cc k g

/-- The new hidden state at column `g`: `o · tanh c`. -/
def cellH (Gi Gf Go Gu : Gate) (xr : Row) (ch cc : Kids) (g : Fin 512) : EReal :=
  Ideal.logistic (Go.lin xr (kidsSum ch) g) * Ideal.tanh (cellC Gi Gf Gu xr ch cc g)

/-- Row `p` of an `[n, 512]` array. -/
def rowOf {n : ℕ} (x : FVec Ideal ⟨2, ![n, 512]⟩ .f32) (p : Fin n) : Row := fun d => x (ix2 p d)

/-- The eight child rows of node `p` in an `[n, 8, 512]` array. -/
def kidsOf {n : ℕ} (ch : FVec Ideal ⟨3, ![n, 8, 512]⟩ .f32) (p : Fin n) : Kids := fun k d => ch (ix3 p k d)

/-- The new memories of `n` nodes as an `[n, 512]` array. -/
def arrC {n : ℕ} (Gi Gf Gu : Gate) (x : FVec Ideal ⟨2, ![n, 512]⟩ .f32) (ch cc : FVec Ideal ⟨3, ![n, 8, 512]⟩ .f32) :
    FVec Ideal ⟨2, ![n, 512]⟩ .f32 := fun j =>
  cellC Gi Gf Gu (rowOf x ⟨(j 0).val, (j 0).isLt⟩) (kidsOf ch ⟨(j 0).val, (j 0).isLt⟩) (kidsOf cc ⟨(j 0).val, (j 0).isLt⟩)
    ⟨(j 1).val, (j 1).isLt⟩

/-- The new hidden states of `n` nodes as an `[n, 512]` array. -/
def arrH {n : ℕ} (Gi Gf Go Gu : Gate) (x : FVec Ideal ⟨2, ![n, 512]⟩ .f32) (ch cc : FVec Ideal ⟨3, ![n, 8, 512]⟩ .f32) :
    FVec Ideal ⟨2, ![n, 512]⟩ .f32 := fun j =>
  cellH Gi Gf Go Gu (rowOf x ⟨(j 0).val, (j 0).isLt⟩) (kidsOf ch ⟨(j 0).val, (j 0).isLt⟩) (kidsOf cc ⟨(j 0).val, (j 0).isLt⟩)
    ⟨(j 1).val, (j 1).isLt⟩

theorem arrC_apply {n : ℕ} (Gi Gf Gu : Gate) (x : FVec Ideal ⟨2, ![n, 512]⟩ .f32) (ch cc : FVec Ideal ⟨3, ![n, 8, 512]⟩ .f32)
    (p : Fin n) (g : Fin 512) :
    arrC Gi Gf Gu x ch cc (ix2 p g) = cellC Gi Gf Gu (rowOf x p) (kidsOf ch p) (kidsOf cc p) g := rfl

theorem arrH_apply {n : ℕ} (Gi Gf Go Gu : Gate) (x : FVec Ideal ⟨2, ![n, 512]⟩ .f32) (ch cc : FVec Ideal ⟨3, ![n, 8, 512]⟩ .f32)
    (p : Fin n) (g : Fin 512) :
    arrH Gi Gf Go Gu x ch cc (ix2 p g) = cellH Gi Gf Go Gu (rowOf x p) (kidsOf ch p) (kidsOf cc p) g := rfl

/-- The sigmoid spelt as a quotient is the one function `Ideal.logistic`. -/
theorem logistic_eq (y : EReal) : Ideal.div 1 (1 + Ideal.exp (-y)) = Ideal.logistic y := rfl

end Cert.TreeCell

end
-- ==== Proof.RefSpec.lean ====
/-
  The reference program computes the child-sum tree cell: read at a node n and a column g, its memory stage is
  cellC and its hidden stage is cellH of the node's input row and of its children's rows.
-/
import proofs.«163631_j34574486733551_1_alg».proof.Proof.Gen.ReferenceIdeal.Read
import proofs.«163631_j34574486733551_1_alg».proof.Proof.Spec
import Idealize.ShloMosaic.Lib.IdealHost

noncomputable section

namespace Cert.TreeCell.Ref

open Cert.ReferenceIdeal Cert.ReferenceIdeal.Read Idealize.ShloMosaic Idealize.ShloMosaic.ValueIdx

set_option quotPrecheck false in
local notation "TX" => (⟨S8192x512, .f32⟩ : BufTy).Contents (Elt Ideal)
set_option quotPrecheck false in
local notation "TK" => (⟨S8192x8x512, .f32⟩ : BufTy).Contents (Elt Ideal)
set_option quotPrecheck false in
local notation "TM" => (⟨S512x512, .f32⟩ : BufTy).Contents (Elt Ideal)
set_option quotPrecheck false in
local notation "TB" => (⟨S512, .f32⟩ : BufTy).Contents (Elt Ideal)

/-- The children's sum at node n and column d. -/
theorem sum_at (x1 : TK) (n : Fin 8192) (d : Fin 512) :
    val_main_v0 (F := Ideal) x1 (ix2 n d) = kidsSum (kidsOf (n := 8192) x1 n) d := by
  rw [val_main_v0_apply, val_main_cst_apply]
  simp only [Ideal.ofBits_def, Ideal.ofBits_zero_f32, zero_add]
  unfold kidsSum kidsOf
  refine Finset.sum_congr rfl fun k _ => ?_
  exact congrArg x1 (funext fun a => Fin.ext (by match a with | ⟨0, _⟩ => rfl | ⟨1, _⟩ => rfl | ⟨2, _⟩ => rfl))

/-- A gate's pre-activation at node n and column g, the hidden operand being the children's sum. -/
theorem lin_at (x0 : TX) (x1 : TK) (W : TM) (bW : TB) (U : TM) (bU : TB) (n : Fin 8192) (g : Fin 512) :
    val_main_v9 (F := Ideal) x0 x1 W bW U bU (ix2 n g)
      = Gate.lin ⟨W, bW, U, bU⟩ (rowOf (n := 8192) x0 n) (kidsSum (kidsOf (n := 8192) x1 n)) g := by
  rw [val_main_v9_apply, val_main_v6_apply, val_main_v4_apply, val_main_v1_apply, val_main_v3_apply, val_main_v2_apply,
    val_main_v5_apply, val_main_v8_apply, val_main_v7_apply]
  simp only [Ideal.addf_def]
  unfold Gate.lin
  refine congrArg₂ (· + ·) (congrArg₂ (· + ·) (congrArg₂ (· + ·) ?_ ?_) ?_) ?_
  · refine Finset.sum_congr rfl fun k _ => congrArg₂ (· * ·) (congrArg x0 ?_) (congrArg W ?_)
    · exact funext fun a => Fin.ext (by match a with | ⟨0, _⟩ => rfl | ⟨1, _⟩ => rfl)
    · exact funext fun a => Fin.ext (by match a with | ⟨0, _⟩ => rfl | ⟨1, _⟩ => rfl)
  · exact congrArg bW (funext fun a => Fin.ext (by match a with | ⟨0, _⟩ => rfl))
  · refine Finset.sum_congr rfl fun k _ => congrArg₂ (· * ·) ?_ (congrArg U ?_)
    · refine (congrArg (val_main_v0 (F := Ideal) x1) ?_).trans (sum_at x1 n k)
      exact funext fun a => Fin.ext (by match a with | ⟨0, _⟩ => rfl | ⟨1, _⟩ => rfl)
    · exact funext fun a => Fin.ext (by match a with | ⟨0, _⟩ => rfl | ⟨1, _⟩ => rfl)
  · exact congrArg bU (funext fun a => Fin.ext (by match a with | ⟨0, _⟩ => rfl))

/-- The sigmoid of a gate's pre-activation: the input gate's stage, for any gate parameters. -/
theorem sig_at (x0 : TX) (x1 : TK) (W : TM) (bW : TB) (U : TM) (bU : TB) (n : Fin 8192) (g : Fin 512) :
    val_main_v15 (F := Ideal) x0 x1 W bW U bU (ix2 n g)
      = Ideal.logistic (Gate.lin ⟨W, bW, U, bU⟩ (rowOf (n := 8192) x0 n) (kidsSum (kidsOf (n := 8192) x1 n)) g) := by
  rw [val_main_v15_apply, val_main_v14_apply, val_main_cst_1_apply, val_main_v13_apply, val_main_v12_apply,
    val_main_cst_0_apply, val_main_v11_apply, val_main_v10_apply, lin_at]
  simp only [Ideal.hostDivf_def, Ideal.ofBits_def, Ideal.ofBits_one_f32, Ideal.addf_def, Ideal.hostUnary_exp_def,
    Ideal.hostNegf_def, Ideal.negf_def]
  exact logistic_eq _

/-- The output gate's stage is the input gate's stage at the output gate's parameters: the two are the same
    composition of operations. -/
theorem out_at (x0 : TX) (x1 : TK) (W : TM) (bW : TB) (U : TM) (bU : TB) (n : Fin 8192) (g : Fin 512) :
    val_main_v30 (F := Ideal) x0 x1 W bW U bU (ix2 n g)
      = Ideal.logistic (Gate.lin ⟨W, bW, U, bU⟩ (rowOf (n := 8192) x0 n) (kidsSum (kidsOf (n := 8192) x1 n)) g) :=
  sig_at x0 x1 W bW U bU n g

/-- The candidate's stage: the hyperbolic tangent of the same affine form. -/
theorem cand_at (x0 : TX) (x1 : TK) (W : TM) (bW : TB) (U : TM) (bU : TB) (n : Fin 8192) (g : Fin 512) :
    val_main_v40 (F := Ideal) x0 x1 W bW U bU (ix2 n g)
      = Ideal.tanh (Gate.lin ⟨W, bW, U, bU⟩ (rowOf (n := 8192) x0 n) (kidsSum (kidsOf (n := 8192) x1 n)) g) := by
  rw [val_main_v40_apply]
  simp only [Ideal.hostUnary_tanh_def]
  exact congrArg Ideal.tanh (lin_at x0 x1 W bW U bU n g)

/-- The forget gate's pre-activation at node n, child k and column g: the hidden operand is child k's row. -/
theorem flin_at (x0 : TX) (x1 : TK) (W : TM) (bW : TB) (U : TM) (bU : TB) (n : Fin 8192) (k : Fin 8) (g : Fin 512) :
    val_main_v51 (F := Ideal) x0 x1 W bW U bU (ix3 n k g)
      = Gate.lin ⟨W, bW, U, bU⟩ (rowOf (n := 8192) x0 n) (kidsOf (n := 8192) x1 n k) g := by
  rw [val_main_v51_apply, val_main_v48_apply, val_main_v47_apply, val_main_v45_apply, val_main_v44_apply,
    val_main_v41_apply, val_main_v43_apply, val_main_v42_apply, val_main_v46_apply, val_main_v50_apply,
    val_main_v49_apply]
  simp only [Ideal.addf_def]
  unfold Gate.lin
  refine congrArg₂ (· + ·) (congrArg₂ (· + ·) (congrArg₂ (· + ·) ?_ ?_) ?_) ?_
  · refine Finset.sum_congr rfl fun d _ => congrArg₂ (· * ·) (congrArg x0 ?_) (congrArg W ?_)
    · exact funext fun a => Fin.ext (by match a with | ⟨0, _⟩ => rfl | ⟨1, _⟩ => rfl)
    · exact funext fun a => Fin.ext (by match a with | ⟨0, _⟩ => rfl | ⟨1, _⟩ => rfl)
  · exact congrArg bW (funext fun a => Fin.ext (by match a with | ⟨0, _⟩ => rfl))
  · refine Finset.sum_congr rfl fun d _ => congrArg₂ (· * ·) (congrArg x1 ?_) (congrArg U ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact congrArg bU (funext fun a => Fin.ext (by match a with | ⟨0, _⟩ => rfl))

/-- The forget gate at node n, child k and column g. -/
theorem fsig_at (x0 : TX) (x1 : TK) (W : TM) (bW : TB) (U : TM) (bU : TB) (n : Fin 8192) (k : Fin 8) (g : Fin 512) :
    val_main_v57 (F := Ideal) x0 x1 W bW U bU (ix3 n k g)
      = Ideal.logistic (Gate.lin ⟨W, bW, U, bU⟩ (rowOf (n := 8192) x0 n) (kidsOf (n := 8192) x1 n k) g) := by
  rw [val_main_v57_apply, val_main_v56_apply, val_main_cst_5_apply, val_main_v55_apply, val_main_v54_apply,
    val_main_cst_4_apply, val_main_v53_apply, val_main_v52_apply, flin_at]
  simp only [Ideal.hostDivf_def, Ideal.ofBits_def, Ideal.ofBits_one_f32, Ideal.addf_def, Ideal.hostUnary_exp_def,
    Ideal.hostNegf_def, Ideal.negf_def]
  exact logistic_eq _

/-- The reference's memory stage at node n and column g is the cell's new memory. -/
theorem ref_c (x0 : (⟨S8192x512, .f32⟩ : BufTy).Contents (Elt Ideal)) (x1 x2 : (⟨S8192x8x512, .f32⟩ : BufTy).Contents (Elt Ideal))
    (x3 : (⟨S512x512, .f32⟩ : BufTy).Contents (Elt Ideal)) (x4 : (⟨S512, .f32⟩ : BufTy).Contents (Elt Ideal))
    (x5 : (⟨S512x512, .f32⟩ : BufTy).Contents (Elt Ideal)) (x6 : (⟨S512, .f32⟩ : BufTy).Contents (Elt Ideal))
    (x7 : (⟨S512x512, .f32⟩ : BufTy).Contents (Elt Ideal)) (x8 : (⟨S512, .f32⟩ : BufTy).Contents (Elt Ideal))
    (x9 : (⟨S512x512, .f32⟩ : BufTy).Contents (Elt Ideal)) (x10 : (⟨S512, .f32⟩ : BufTy).Contents (Elt Ideal))
    (x15 : (⟨S512x512, .f32⟩ : BufTy).Contents (Elt Ideal)) (x16 : (⟨S512, .f32⟩ : BufTy).Contents (Elt Ideal))
    (x17 : (⟨S512x512, .f32⟩ : BufTy).Contents (Elt Ideal)) (x18 : (⟨S512, .f32⟩ : BufTy).Contents (Elt Ideal))
    (n : Fin 8192) (g : Fin 512) :
    Cert.ReferenceIdeal.Read.val_main_v61 (F := Ideal) x0 x1 x2 x3 x4 x5 x6 x7 x8 x9 x10 x15 x16 x17 x18 (ix2 n g)
      = cellC ⟨x3, x4, x5, x6⟩ ⟨x7, x8, x9, x10⟩ ⟨x15, x16, x17, x18⟩ (rowOf x0 n) (kidsOf x1 n) (kidsOf x2 n) g := by
  rw [val_main_v61_apply, val_main_v58_apply, val_main_v60_apply, val_main_cst_6_apply, sig_at, cand_at]
  simp only [Ideal.addf_def, Ideal.mulf_def, Ideal.ofBits_def, Ideal.ofBits_zero_f32, zero_add]
  unfold cellC
  refine congrArg (_ + ·) (Finset.sum_congr rfl fun k _ => ?_)
  have e : idx_main_v60 (ix2 n g) k = ix3 n k g :=
    funext fun a => Fin.ext (by match a with | ⟨0, _⟩ => rfl | ⟨1, _⟩ => rfl | ⟨2, _⟩ => rfl)
  rw [e, val_main_v59_apply, fsig_at]
  rfl

/-- The reference's hidden stage at node n and column g is the cell's new hidden state. -/
theorem ref_h (x0 : (⟨S8192x512, .f32⟩ : BufTy).Contents (Elt Ideal)) (x1 x2 : (⟨S8192x8x512, .f32⟩ : BufTy).Contents (Elt Ideal))
    (x3 : (⟨S512x512, .f32⟩ : BufTy).Contents (Elt Ideal)) (x4 : (⟨S512, .f32⟩ : BufTy).Contents (Elt Ideal))
    (x5 : (⟨S512x512, .f32⟩ : BufTy).Contents (Elt Ideal)) (x6 : (⟨S512, .f32⟩ : BufTy).Contents (Elt Ideal))
    (x7 : (⟨S512x512, .f32⟩ : BufTy).Contents (Elt Ideal)) (x8 : (⟨S512, .f32⟩ : BufTy).Contents (Elt Ideal))
    (x9 : (⟨S512x512, .f32⟩ : BufTy).Contents (Elt Ideal)) (x10 : (⟨S512, .f32⟩ : BufTy).Contents (Elt Ideal))
    (x11 : (⟨S512x512, .f32⟩ : BufTy).Contents (Elt Ideal)) (x12 : (⟨S512, .f32⟩ : BufTy).Contents (Elt Ideal))
    (x13 : (⟨S512x512, .f32⟩ : BufTy).Contents (Elt Ideal)) (x14 : (⟨S512, .f32⟩ : BufTy).Contents (Elt Ideal))
    (x15 : (⟨S512x512, .f32⟩ : BufTy).Contents (Elt Ideal)) (x16 : (⟨S512, .f32⟩ : BufTy).Contents (Elt Ideal))
    (x17 : (⟨S512x512, .f32⟩ : BufTy).Contents (Elt Ideal)) (x18 : (⟨S512, .f32⟩ : BufTy).Contents (Elt Ideal))
    (n : Fin 8192) (g : Fin 512) :
    Cert.ReferenceIdeal.Read.val_main_v63 (F := Ideal) x0 x1 x2 x3 x4 x5 x6 x7 x8 x9 x10 x11 x12 x13 x14 x15 x16 x17 x18 (ix2 n g)
      = cellH ⟨x3, x4, x5, x6⟩ ⟨x7, x8, x9, x10⟩ ⟨x11, x12, x13, x14⟩ ⟨x15, x16, x17, x18⟩ (rowOf x0 n) (kidsOf x1 n)
          (kidsOf x2 n) g := by
  rw [val_main_v63_apply, val_main_v62_apply, out_at, ref_c]
  simp only [Ideal.mulf_def, Ideal.hostUnary_tanh_def]
  rfl

/-- The memory stage as a whole array. -/
theorem ref_c_arr (x0 : (⟨S8192x512, .f32⟩ : BufTy).Contents (Elt Ideal)) (x1 x2 : (⟨S8192x8x512, .f32⟩ : BufTy).Contents (Elt Ideal))
    (x3 : (⟨S512x512, .f32⟩ : BufTy).Contents (Elt Ideal)) (x4 : (⟨S512, .f32⟩ : BufTy).Contents (Elt Ideal))
    (x5 : (⟨S512x512, .f32⟩ : BufTy).Contents (Elt Ideal)) (x6 : (⟨S512, .f32⟩ : BufTy).Contents (Elt Ideal))
    (x7 : (⟨S512x512, .f32⟩ : BufTy).Contents (Elt Ideal)) (x8 : (⟨S512, .f32⟩ : BufTy).Contents (Elt Ideal))
    (x9 : (⟨S512x512, .f32⟩ : BufTy).Contents (Elt Ideal)) (x10 : (⟨S512, .f32⟩ : BufTy).Contents (Elt Ideal))
    (x15 : (⟨S512x512, .f32⟩ : BufTy).Contents (Elt Ideal)) (x16 : (⟨S512, .f32⟩ : BufTy).Contents (Elt Ideal))
    (x17 : (⟨S512x512, .f32⟩ : BufTy).Contents (Elt Ideal)) (x18 : (⟨S512, .f32⟩ : BufTy).Contents (Elt Ideal)) :
    Cert.ReferenceIdeal.Read.val_main_v61 (F := Ideal) x0 x1 x2 x3 x4 x5 x6 x7 x8 x9 x10 x15 x16 x17 x18
      = arrC (n := 8192) ⟨x3, x4, x5, x6⟩ ⟨x7, x8, x9, x10⟩ ⟨x15, x16, x17, x18⟩ x0 x1 x2 := by
  funext j
  rw [eq_ix2 j]
  exact ref_c x0 x1 x2 x3 x4 x5 x6 x7 x8 x9 x10 x15 x16 x17 x18 (j 0) (j 1)

/-- The hidden stage as a whole array. -/
theorem ref_h_arr (x0 : (⟨S8192x512, .f32⟩ : BufTy).Contents (Elt Ideal)) (x1 x2 : (⟨S8192x8x512, .f32⟩ : BufTy).Contents (Elt Ideal))
    (x3 : (⟨S512x512, .f32⟩ : BufTy).Contents (Elt Ideal)) (x4 : (⟨S512, .f32⟩ : BufTy).Contents (Elt Ideal))
    (x5 : (⟨S512x512, .f32⟩ : BufTy).Contents (Elt Ideal)) (x6 : (⟨S512, .f32⟩ : BufTy).Contents (Elt Ideal))
    (x7 : (⟨S512x512, .f32⟩ : BufTy).Contents (Elt Ideal)) (x8 : (⟨S512, .f32⟩ : BufTy).Contents (Elt Ideal))
    (x9 : (⟨S512x512, .f32⟩ : BufTy).Contents (Elt Ideal)) (x10 : (⟨S512, .f32⟩ : BufTy).Contents (Elt Ideal))
    (x11 : (⟨S512x512, .f32⟩ : BufTy).Contents (Elt Ideal)) (x12 : (⟨S512, .f32⟩ : BufTy).Contents (Elt Ideal))
    (x13 : (⟨S512x512, .f32⟩ : BufTy).Contents (Elt Ideal)) (x14 : (⟨S512, .f32⟩ : BufTy).Contents (Elt Ideal))
    (x15 : (⟨S512x512, .f32⟩ : BufTy).Contents (Elt Ideal)) (x16 : (⟨S512, .f32⟩ : BufTy).Contents (Elt Ideal))
    (x17 : (⟨S512x512, .f32⟩ : BufTy).Contents (Elt Ideal)) (x18 : (⟨S512, .f32⟩ : BufTy).Contents (Elt Ideal)) :
    Cert.ReferenceIdeal.Read.val_main_v63 (F := Ideal) x0 x1 x2 x3 x4 x5 x6 x7 x8 x9 x10 x11 x12 x13 x14 x15 x16 x17 x18
      = arrH (n := 8192) ⟨x3, x4, x5, x6⟩ ⟨x7, x8, x9, x10⟩ ⟨x11, x12, x13, x14⟩ ⟨x15, x16, x17, x18⟩ x0 x1 x2 := by
  funext j
  rw [eq_ix2 j]
  exact ref_h x0 x1 x2 x3 x4 x5 x6 x7 x8 x9 x10 x11 x12 x13 x14 x15 x16 x17 x18 (j 0) (j 1)

end Cert.TreeCell.Ref

end
-- ==== Proof.Blocks.lean ====
/-
  The windows of the one grid of 64 points, read as rows of the arrays.

  Point `t` handles nodes `128 t … 128 t + 127`: the blocks of `x`, of the children's hidden rows and of their memory
  rows at point `t` are those rows of the three data arrays; each of the sixteen parameter windows (eight 512 × 512
  matrices, eight biases) has one block, the whole array, at every point; and each of the two results' blocks at point
  `t` is rows `128 t … 128 t + 127` of its array, so the 64 blocks tile the array.
-/
import proofs.«163631_j34574486733551_1_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.TreeCell.Blocks

open Cert.KernelIdeal Cert.KernelIdeal.Gen

variable {F : FTy → Type} [FloatOps F]
variable (m : (ℓ : Loc nD τ sig) → Buf (Elt F) ℓ)

/-- The data windows' and the results' block index at point `t` is `(t, 0)` (resp. `(t, 0, 0)`), decided over the grid. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_19.index t (0 : Fin 2) = t.val ∧ win0_19.index t (1 : Fin 2) = 0
    ∧ win0_20.index t (0 : Fin 2) = t.val ∧ win0_20.index t (1 : Fin 2) = 0 :=
  (by decide +kernel : ∀ t : Fin grid0.N, _)

theorem t_lt (t : Fin cfg0.N) : t.val < 64 := Nat.lt_of_lt_of_eq t.isLt N_0

theorem row_lt (t : Fin cfg0.N) (p : Fin 128) : t.val * 128 + p.val < 8192 := by
  have := t_lt t; have := p.isLt; omega

/-- The block of `x` at point `t` is rows `128 t … 128 t + 127` of the array. -/
theorem xblk_apply (c : Dev nD) (t : Fin cfg0.N) (p : Fin 128) (d : Fin 512) :
    (iblk m c 0 t : Vec F S128x512 .f32) (ix2 p d)
      = (V m c main_arg0 : S8192x512.Idx → Elt F .f32) (ix2 ⟨t.val * 128 + p.val, row_lt t p⟩ d) := by
  obtain ⟨e0, e1, -⟩ := idx_facts t
  unfold iblk
  rw [View.read_apply]
  show V m c main_arg0 _ = V m c main_arg0 _
  congr 1
  funext a
  apply Fin.ext
  match a with
  | ⟨0, _⟩ => show win0_0.index t 0 * 128 + 1 * p.val = t.val * 128 + p.val; rw [e0]; omega
  | ⟨1, _⟩ => show win0_0.index t 1 * 512 + 1 * d.val = d.val; rw [e1]; omega

/-- The block of the children's hidden rows at point `t`: nodes `128 t … 128 t + 127`, all eight children. -/
theorem hblk_apply (c : Dev nD) (t : Fin cfg0.N) (p : Fin 128) (k : Fin 8) (d : Fin 512) :
    (iblk m c 1 t : Vec F S128x8x512 .f32) (ix3 p k d)
      = (V m c main_arg1 : S8192x8x512.Idx → Elt F .f32) (ix3 ⟨t.val * 128 + p.val, row_lt t p⟩ k d) := by
  obtain ⟨-, -, e0, e1, e2, -⟩ := idx_facts t
  unfold iblk
  rw [View.read_apply]
  show V m c main_arg1 _ = V m c main_arg1 _
  congr 1
  funext a
  apply Fin.ext
  match a with
  | ⟨0, _⟩ => show win0_1.index t 0 * 128 + 1 * p.val = t.val * 128 + p.val; rw [e0]; omega
  | ⟨1, _⟩ => show win0_1.index t 1 * 8 + 1 * k.val = k.val; rw [e1]; omega
  | ⟨2, _⟩ => show win0_1.index t 2 * 512 + 1 * d.val = d.val; rw [e2]; omega

/-- The block of the children's memory rows at point `t`, likewise. -/
theorem cblk_apply (c : Dev nD) (t : Fin cfg0.N) (p : Fin 128) (k : Fin 8) (d : Fin 512) :
    (iblk m c 2 t : Vec F S128x8x512 .f32) (ix3 p k d)
      = (V m c main_arg2 : S8192x8x512.Idx → Elt F .f32) (ix3 ⟨t.val * 128 + p.val, row_lt t p⟩ k d) := by
  obtain ⟨-, -, -, -, -, e0, e1, e2, -⟩ := idx_facts t
  unfold iblk
  rw [View.read_apply]
  show V m c main_arg2 _ = V m c main_arg2 _
  congr 1
  funext a
  apply Fin.ext
  match a with
  | ⟨0, _⟩ => show win0_2.index t 0 * 128 + 1 * p.val = t.val * 128 + p.val; rw [e0]; omega
  | ⟨1, _⟩ => show win0_2.index t 1 * 8 + 1 * k.val = k.val; rw [e1]; omega
  | ⟨2, _⟩ => show win0_2.index t 2 * 512 + 1 * d.val = d.val; rw [e2]; omega

/-! ## The parameter windows: one block, the whole array, at every point -/

theorem idx3 : ∀ t : Fin cfg0.N, win0_3.index t (0 : Fin 2) = 0 ∧ win0_3.index t (1 : Fin 2) = 0 :=
  (by decide +kernel : ∀ t : Fin grid0.N, _)

theorem mat3_blk (c : Dev nD) (t : Fin cfg0.N) :
    (iblk m c 3 t : Vec F S512x512 .f32) = (V m c main_arg3 : S512x512.Idx → Elt F .f32) := by
  obtain ⟨e0, e1⟩ := idx3 t
  funext i
  unfold iblk
  rw [View.read_apply]
  show V m c main_arg3 _ = V m c main_arg3 i
  congr 1
  funext a
  apply Fin.ext
  match a with
  | ⟨0, _⟩ => show win0_3.index t 0 * 512 + 1 * (i 0).val = (i 0).val; rw [e0]; omega
  | ⟨1, _⟩ => show win0_3.index t 1 * 512 + 1 * (i 1).val = (i 1).val; rw [e1]; omega

theorem idx5 : ∀ t : Fin cfg0.N, win0_5.index t (0 : Fin 2) = 0 ∧ win0_5.index t (1 : Fin 2) = 0 :=
  (by decide +kernel : ∀ t : Fin grid0.N, _)

theorem mat5_blk (c : Dev nD) (t : Fin cfg0.N) :
    (iblk m c 5 t : Vec F S512x512 .f32) = (V m c main_arg5 : S512x512.Idx → Elt F .f32) := by
  obtain ⟨e0, e1⟩ := idx5 t
  funext i
  unfold iblk
  rw [View.read_apply]
  show V m c main_arg5 _ = V m c main_arg5 i
  congr 1
  funext a
  apply Fin.ext
  match a with
  | ⟨0, _⟩ => show win0_5.index t 0 * 512 + 1 * (i 0).val = (i 0).val; rw [e0]; omega
  | ⟨1, _⟩ => show win0_5.index t 1 * 512 + 1 * (i 1).val = (i 1).val; rw [e1]; omega

theorem idx7 : ∀ t : Fin cfg0.N, win0_7.index t (0 : Fin 2) = 0 ∧ win0_7.index t (1 : Fin 2) = 0 :=
  (by decide +kernel : ∀ t : Fin grid0.N, _)

theorem mat7_blk (c : Dev nD) (t : Fin cfg0.N) :
    (iblk m c 7 t : Vec F S512x512 .f32) = (V m c main_arg7 : S512x512.Idx → Elt F .f32) := by
  obtain ⟨e0, e1⟩ := idx7 t
  funext i
  unfold iblk
  rw [View.read_apply]
  show V m c main_arg7 _ = V m c main_arg7 i
  congr 1
  funext a
  apply Fin.ext
  match a with
  | ⟨0, _⟩ => show win0_7.index t 0 * 512 + 1 * (i 0).val = (i 0).val; rw [e0]; omega
  | ⟨1, _⟩ => show win0_7.index t 1 * 512 + 1 * (i 1).val = (i 1).val; rw [e1]; omega

theorem idx9 : ∀ t : Fin cfg0.N, win0_9.index t (0 : Fin 2) = 0 ∧ win0_9.index t (1 : Fin 2) = 0 :=
  (by decide +kernel : ∀ t : Fin grid0.N, _)

theorem mat9_blk (c : Dev nD) (t : Fin cfg0.N) :
    (iblk m c 9 t : Vec F S512x512 .f32) = (V m c main_arg9 : S512x512.Idx → Elt F .f32) := by
  obtain ⟨e0, e1⟩ := idx9 t
  funext i
  unfold iblk
  rw [View.read_apply]
  show V m c main_arg9 _ = V m c main_arg9 i
  congr 1
  funext a
  apply Fin.ext
  match a with
  | ⟨0, _⟩ => show win0_9.index t 0 * 512 + 1 * (i 0).val = (i 0).val; rw [e0]; omega
  | ⟨1, _⟩ => show win0_9.index t 1 * 512 + 1 * (i 1).val = (i 1).val; rw [e1]; omega

theorem idx11 : ∀ t : Fin cfg0.N, win0_11.index t (0 : Fin 2) = 0 ∧ win0_11.index t (1 : Fin 2) = 0 :=
  (by decide +kernel : ∀ t : Fin grid0.N, _)

theorem mat11_blk (c : Dev nD) (t : Fin cfg0.N) :
    (iblk m c 11 t : Vec F S512x512 .f32) = (V m c main_arg11 : S512x512.Idx → Elt F .f32) := by
  obtain ⟨e0, e1⟩ := idx11 t
  funext i
  unfold iblk
  rw [View.read_apply]
  show V m c main_arg11 _ = V m c main_arg11 i
  congr 1
  funext a
  apply Fin.ext
  match a with
  | ⟨0, _⟩ => show win0_11.index t 0 * 512 + 1 * (i 0).val = (i 0).val; rw [e0]; omega
  | ⟨1, _⟩ => show win0_11.index t 1 * 512 + 1 * (i 1).val = (i 1).val; rw [e1]; omega

theorem idx13 : ∀ t : Fin cfg0.N, win0_13.index t (0 : Fin 2) = 0 ∧ win0_13.index t (1 : Fin 2) = 0 :=
  (by decide +kernel : ∀ t : Fin grid0.N, _)

theorem mat13_blk (c : Dev nD) (t : Fin cfg0.N) :
    (iblk m c 13 t : Vec F S512x512 .f32) = (V m c main_arg13 : S512x512.Idx → Elt F .f32) := by
  obtain ⟨e0, e1⟩ := idx13 t
  funext i
  unfold iblk
  rw [View.read_apply]
  show V m c main_arg13 _ = V m c main_arg13 i
  congr 1
  funext a
  apply Fin.ext
  match a with
  | ⟨0, _⟩ => show win0_13.index t 0 * 512 + 1 * (i 0).val = (i 0).val; rw [e0]; omega
  | ⟨1, _⟩ => show win0_13.index t 1 * 512 + 1 * (i 1).val = (i 1).val; rw [e1]; omega

theorem idx15 : ∀ t : Fin cfg0.N, win0_15.index t (0 : Fin 2) = 0 ∧ win0_15.index t (1 : Fin 2) = 0 :=
  (by decide +kernel : ∀ t : Fin grid0.N, _)

theorem mat15_blk (c : Dev nD) (t : Fin cfg0.N) :
    (iblk m c 15 t : Vec F S512x512 .f32) = (V m c main_arg15 : S512x512.Idx → Elt F .f32) := by
  obtain ⟨e0, e1⟩ := idx15 t
  funext i
  unfold iblk
  rw [View.read_apply]
  show V m c main_arg15 _ = V m c main_arg15 i
  congr 1
  funext a
  apply Fin.ext
  match a with
  | ⟨0, _⟩ => show win0_15.index t 0 * 512 + 1 * (i 0).val = (i 0).val; rw [e0]; omega
  | ⟨1, _⟩ => show win0_15.index t 1 * 512 + 1 * (i 1).val = (i 1).val; rw [e1]; omega

theorem idx17 : ∀ t : Fin cfg0.N, win0_17.index t (0 : Fin 2) = 0 ∧ win0_17.index t (1 : Fin 2) = 0 :=
  (by decide +kernel : ∀ t : Fin grid0.N, _)

theorem mat17_blk (c : Dev nD) (t : Fin cfg0.N) :
    (iblk m c 17 t : Vec F S512x512 .f32) = (V m c main_arg17 : S512x512.Idx → Elt F .f32) := by
  obtain ⟨e0, e1⟩ := idx17 t
  funext i
  unfold iblk
  rw [View.read_apply]
  show V m c main_arg17 _ = V m c main_arg17 i
  congr 1
  funext a
  apply Fin.ext
  match a with
  | ⟨0, _⟩ => show win0_17.index t 0 * 512 + 1 * (i 0).val = (i 0).val; rw [e0]; omega
  | ⟨1, _⟩ => show win0_17.index t 1 * 512 + 1 * (i 1).val = (i 1).val; rw [e1]; omega

theorem idx4 : ∀ t : Fin cfg0.N, win0_4.index t (0 : Fin 1) = 0 :=
  (by decide +kernel : ∀ t : Fin grid0.N, _)

theorem vec4_blk (c : Dev nD) (t : Fin cfg0.N) :
    (iblk m c 4 t : Vec F S512 .f32) = (V m c main_arg4 : S512.Idx → Elt F .f32) := by
  have e0 := idx4 t
  funext i
  unfold iblk
  rw [View.read_apply]
  show V m c main_arg4 _ = V m c main_arg4 i
  congr 1
  funext a
  apply Fin.ext
  match a with
  | ⟨0, _⟩ => show win0_4.index t 0 * 512 + 1 * (i 0).val = (i 0).val; rw [e0]; omega

theorem idx6 : ∀ t : Fin cfg0.N, win0_6.index t (0 : Fin 1) = 0 :=
  (by decide +kernel : ∀ t : Fin grid0.N, _)

theorem vec6_blk (c : Dev nD) (t : Fin cfg0.N) :
    (iblk m c 6 t : Vec F S512 .f32) = (V m c main_arg6 : S512.Idx → Elt F .f32) := by
  have e0 := idx6 t
  funext i
  unfold iblk
  rw [View.read_apply]
  show V m c main_arg6 _ = V m c main_arg6 i
  congr 1
  funext a
  apply Fin.ext
  match a with
  | ⟨0, _⟩ => show win0_6.index t 0 * 512 + 1 * (i 0).val = (i 0).val; rw [e0]; omega

theorem idx8 : ∀ t : Fin cfg0.N, win0_8.index t (0 : Fin 1) = 0 :=
  (by decide +kernel : ∀ t : Fin grid0.N, _)

theorem vec8_blk (c : Dev nD) (t : Fin cfg0.N) :
    (iblk m c 8 t : Vec F S512 .f32) = (V m c main_arg8 : S512.Idx → Elt F .f32) := by
  have e0 := idx8 t
  funext i
  unfold iblk
  rw [View.read_apply]
  show V m c main_arg8 _ = V m c main_arg8 i
  congr 1
  funext a
  apply Fin.ext
  match a with
  | ⟨0, _⟩ => show win0_8.index t 0 * 512 + 1 * (i 0).val = (i 0).val; rw [e0]; omega

theorem idx10 : ∀ t : Fin cfg0.N, win0_10.index t (0 : Fin 1) = 0 :=
  (by decide +kernel : ∀ t : Fin grid0.N, _)

theorem vec10_blk (c : Dev nD) (t : Fin cfg0.N) :
    (iblk m c 10 t : Vec F S512 .f32) = (V m c main_arg10 : S512.Idx → Elt F .f32) := by
  have e0 := idx10 t
  funext i
  unfold iblk
  rw [View.read_apply]
  show V m c main_arg10 _ = V m c main_arg10 i
  congr 1
  funext a
  apply Fin.ext
  match a with
  | ⟨0, _⟩ => show win0_10.index t 0 * 512 + 1 * (i 0).val = (i 0).val; rw [e0]; omega

theorem idx12 : ∀ t : Fin cfg0.N, win0_12.index t (0 : Fin 1) = 0 :=
  (by decide +kernel : ∀ t : Fin grid0.N, _)

theorem vec12_blk (c : Dev nD) (t : Fin cfg0.N) :
    (iblk m c 12 t : Vec F S512 .f32) = (V m c main_arg12 : S512.Idx → Elt F .f32) := by
  have e0 := idx12 t
  funext i
  unfold iblk
  rw [View.read_apply]
  show V m c main_arg12 _ = V m c main_arg12 i
  congr 1
  funext a
  apply Fin.ext
  match a with
  | ⟨0, _⟩ => show win0_12.index t 0 * 512 + 1 * (i 0).val = (i 0).val; rw [e0]; omega

theorem idx14 : ∀ t : Fin cfg0.N, win0_14.index t (0 : Fin 1) = 0 :=
  (by decide +kernel : ∀ t : Fin grid0.N, _)

theorem vec14_blk (c : Dev nD) (t : Fin cfg0.N) :
    (iblk m c 14 t : Vec F S512 .f32) = (V m c main_arg14 : S512.Idx → Elt F .f32) := by
  have e0 := idx14 t
  funext i
  unfold iblk
  rw [View.read_apply]
  show V m c main_arg14 _ = V m c main_arg14 i
  congr 1
  funext a
  apply Fin.ext
  match a with
  | ⟨0, _⟩ => show win0_14.index t 0 * 512 + 1 * (i 0).val = (i 0).val; rw [e0]; omega

theorem idx16 : ∀ t : Fin cfg0.N, win0_16.index t (0 : Fin 1) = 0 :=
  (by decide +kernel : ∀ t : Fin grid0.N, _)

theorem vec16_blk (c : Dev nD) (t : Fin cfg0.N) :
    (iblk m c 16 t : Vec F S512 .f32) = (V m c main_arg16 : S512.Idx → Elt F .f32) := by
  have e0 := idx16 t
  funext i
  unfold iblk
  rw [View.read_apply]
  show V m c main_arg16 _ = V m c main_arg16 i
  congr 1
  funext a
  apply Fin.ext
  match a with
  | ⟨0, _⟩ => show win0_16.index t 0 * 512 + 1 * (i 0).val = (i 0).val; rw [e0]; omega

theorem idx18 : ∀ t : Fin cfg0.N, win0_18.index t (0 : Fin 1) = 0 :=
  (by decide +kernel : ∀ t : Fin grid0.N, _)

theorem vec18_blk (c : Dev nD) (t : Fin cfg0.N) :
    (iblk m c 18 t : Vec F S512 .f32) = (V m c main_arg18 : S512.Idx → Elt F .f32) := by
  have e0 := idx18 t
  funext i
  unfold iblk
  rw [View.read_apply]
  show V m c main_arg18 _ = V m c main_arg18 i
  congr 1
  funext a
  apply Fin.ext
  match a with
  | ⟨0, _⟩ => show win0_18.index t 0 * 512 + 1 * (i 0).val = (i 0).val; rw [e0]; omega

/-! ## The results' blocks -/

/-- Reading an `[8192, 512]` array through output window 19's block at point `t`: entry `(p, g)` of the block is entry
    `(128 t + p, g)` of the array. -/
theorem out19_read (c : Dev nD) (t : Fin cfg0.N) (G : Buf (Elt F) ((cfg0.win 19).arr.view.loc (c.tc : Thread nD τ)))
    (p : Fin 128) (g : Fin 512) :
    (((cfg0.win 19).blk t).view.read (Elt F) G : Vec F S128x512 .f32) (ix2 p g)
      = (G : S8192x512.Idx → Elt F .f32) (ix2 ⟨t.val * 128 + p.val, row_lt t p⟩ g) := by
  obtain ⟨-, -, -, -, -, -, -, -, e0, e1, f0, f1⟩ := idx_facts t
  rw [View.read_apply]
  refine congrArg (G : S8192x512.Idx → Elt F .f32) (funext fun a => Fin.ext ?_)
  match a with
  | ⟨0, _⟩ => show win0_19.index t 0 * 128 + 1 * p.val = t.val * 128 + p.val; rw [e0]; omega
  | ⟨1, _⟩ => show win0_19.index t 1 * 512 + 1 * g.val = g.val; rw [e1]; omega

/-- An index of the array lies in point `t`'s block of output window 19 iff each coordinate is in the block's range. -/
theorem mem_blk19 (t : Fin cfg0.N) (i : S8192x512.Idx) :
    i ∈ ((cfg0.win 19).blk t).view.set ↔ ∀ a : Fin 2, win0_19.index t a * S128x512.size a ≤ (i a).val ∧ (i a).val < win0_19.index t a * S128x512.size a + S128x512.size a := by
  show i ∈ ((View.whole main_v0_0).slice (win0_19.rect t)).set ↔ _
  rw [View.set_slice_whole, Rect.mem_set_unit]
  exact Iff.rfl

/-- Every row of the array is written back by the point that owns its 128-row block: row `r` by point `r / 128`. -/
theorem cover19 (i : S8192x512.Idx) :
    ∃ t : Fin cfg0.N, (cfg0.win 19).flush t = true ∧ i ∈ ((cfg0.win 19).blk t).view.set := by
  have hi0 : (i 0).val < 8192 := (i 0).isLt
  have hi1 : (i 1).val < 512 := (i 1).isLt
  have hq : (i 0).val / 128 < cfg0.N := Nat.lt_of_lt_of_eq (by omega : (i 0).val / 128 < 64) N_0.symm
  obtain ⟨-, -, -, -, -, -, -, -, e0, e1, f0, f1⟩ := idx_facts ⟨(i 0).val / 128, hq⟩
  refine ⟨⟨(i 0).val / 128, hq⟩, flush0_19 _, ?_⟩
  rw [mem_blk19]
  intro a
  match a with
  | ⟨0, _⟩ =>
    show win0_19.index ⟨(i 0).val / 128, hq⟩ 0 * 128 ≤ (i 0).val ∧ (i 0).val < win0_19.index ⟨(i 0).val / 128, hq⟩ 0 * 128 + 128
    rw [e0]
    show (i 0).val / 128 * 128 ≤ (i 0).val ∧ (i 0).val < (i 0).val / 128 * 128 + 128
    omega
  | ⟨1, _⟩ =>
    show win0_19.index ⟨(i 0).val / 128, hq⟩ 1 * 512 ≤ (i 1).val ∧ (i 1).val < win0_19.index ⟨(i 0).val / 128, hq⟩ 1 * 512 + 512
    rw [e1]
    omega

/-- Reading an `[8192, 512]` array through output window 20's block at point `t`: entry `(p, g)` of the block is entry
    `(128 t + p, g)` of the array. -/
theorem out20_read (c : Dev nD) (t : Fin cfg0.N) (G : Buf (Elt F) ((cfg0.win 20).arr.view.loc (c.tc : Thread nD τ)))
    (p : Fin 128) (g : Fin 512) :
    (((cfg0.win 20).blk t).view.read (Elt F) G : Vec F S128x512 .f32) (ix2 p g)
      = (G : S8192x512.Idx → Elt F .f32) (ix2 ⟨t.val * 128 + p.val, row_lt t p⟩ g) := by
  obtain ⟨-, -, -, -, -, -, -, -, e0, e1, f0, f1⟩ := idx_facts t
  rw [View.read_apply]
  refine congrArg (G : S8192x512.Idx → Elt F .f32) (funext fun a => Fin.ext ?_)
  match a with
  | ⟨0, _⟩ => show win0_20.index t 0 * 128 + 1 * p.val = t.val * 128 + p.val; rw [f0]; omega
  | ⟨1, _⟩ => show win0_20.index t 1 * 512 + 1 * g.val = g.val; rw [f1]; omega

/-- An index of the array lies in point `t`'s block of output window 20 iff each coordinate is in the block's range. -/
theorem mem_blk20 (t : Fin cfg0.N) (i : S8192x512.Idx) :
    i ∈ ((cfg0.win 20).blk t).view.set ↔ ∀ a : Fin 2, win0_20.index t a * S128x512.size a ≤ (i a).val ∧ (i a).val < win0_20.index t a * S128x512.size a + S128x512.size a := by
  show i ∈ ((View.whole main_v0_1).slice (win0_20.rect t)).set ↔ _
  rw [View.set_slice_whole, Rect.mem_set_unit]
  exact Iff.rfl

/-- Every row of the array is written back by the point that owns its 128-row block: row `r` by point `r / 128`. -/
theorem cover20 (i : S8192x512.Idx) :
    ∃ t : Fin cfg0.N, (cfg0.win 20).flush t = true ∧ i ∈ ((cfg0.win 20).blk t).view.set := by
  have hi0 : (i 0).val < 8192 := (i 0).isLt
  have hi1 : (i 1).val < 512 := (i 1).isLt
  have hq : (i 0).val / 128 < cfg0.N := Nat.lt_of_lt_of_eq (by omega : (i 0).val / 128 < 64) N_0.symm
  obtain ⟨-, -, -, -, -, -, -, -, e0, e1, f0, f1⟩ := idx_facts ⟨(i 0).val / 128, hq⟩
  refine ⟨⟨(i 0).val / 128, hq⟩, flush0_20 _, ?_⟩
  rw [mem_blk20]
  intro a
  match a with
  | ⟨0, _⟩ =>
    show win0_20.index ⟨(i 0).val / 128, hq⟩ 0 * 128 ≤ (i 0).val ∧ (i 0).val < win0_20.index ⟨(i 0).val / 128, hq⟩ 0 * 128 + 128
    rw [f0]
    show (i 0).val / 128 * 128 ≤ (i 0).val ∧ (i 0).val < (i 0).val / 128 * 128 + 128
    omega
  | ⟨1, _⟩ =>
    show win0_20.index ⟨(i 0).val / 128, hq⟩ 1 * 512 ≤ (i 1).val ∧ (i 1).val < win0_20.index ⟨(i 0).val / 128, hq⟩ 1 * 512 + 512
    rw [f1]
    omega

end Cert.TreeCell.Blocks

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.LibMidAxis.lean ====
/-
  General lemmas: rank-3 vectors read at an index, at the ideal instance.

  * a sum over the MIDDLE axis of an `[a, b, c]` vector, at `(p, d)`, is `Σ k, src (p, k, d)`;
  * a reshape `[a, b, c] ↔ [a·b, c]` reads row `p · b + k` against `(p, k, ·)`;
  * a unit middle axis inserted into `[a, c]` and spread over `[a, b, c]` reads the entry `(p, d)`;
  * a `[c]` parameter given two leading unit axes and spread over `[a, b, c]` reads its entry `d`.
-/
import Idealize.ShloMosaic.PureOps.Ideal.Laws
import Idealize.ShloMosaic.Lib.ValueIdx
import Idealize.ShloMosaic.Lib.ValueLayout
import Idealize.ShloMosaic.Lib.Pipeline.Value

noncomputable section

namespace Cert.MidAxis

open Idealize.ShloMosaic Idealize.ShloMosaic.ValueIdx

section Layout
variable {α : Type}

/-- A sum over the middle axis of an `[a, b, c]` vector, read at `(p, d)`: the sum over `k` of the entries `(p, k, d)`. -/
theorem midSum_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (d : Fin c) :
    multiReduction .add [1] ⟨2, ![a, c]⟩ src acc h hφ hacc (ix2 p d) = ∑ k : Fin b, src (ix3 p k d) := by
  rw [Ideal.multiReduction_add_single]
  refine Finset.sum_congr rfl fun k _ => congrArg src (funext fun ax => Fin.ext ?_)
  match ax with
  | ⟨0, _⟩ => rfl
  | ⟨1, _⟩ => rfl
  | ⟨2, _⟩ => rfl

/-- An `[a, b, c]` array flattened to `[m, c]` (`m = a · b`) reads, at row `q = p · b + k`, the operand at `(p, k, ·)`. -/
theorem shapeCast_abc_mc_apply {a b c m : ℕ} (x : (⟨3, ![a, b, c]⟩ : Shape).Idx → α)
    (h : (⟨3, ![a, b, c]⟩ : Shape).ShapeCasts ⟨2, ![m, c]⟩) (p : Fin a) (k : Fin b) (d : Fin c) (q : Fin m)
    (hq : q.val = p.val * b + k.val) : shapeCast ⟨2, ![m, c]⟩ x h (ix2 q d) = x (ix3 p k d) :=
  shapeCast_apply x h _ _ (by
    rw [Shape.rowMajor_val_three, Shape.rowMajor_val_two]
    show (p.val * b + k.val) * c + d.val = q.val * c + d.val
    rw [hq])

/-- An `[m, c]` array split to `[a, b, c]` (`m = a · b`) reads, at `(p, k, ·)`, the operand at row `q = p · b + k`. -/
theorem shapeCast_mc_abc_apply {a b c m : ℕ} (x : (⟨2, ![m, c]⟩ : Shape).Idx → α)
    (h : (⟨2, ![m, c]⟩ : Shape).ShapeCasts ⟨3, ![a, b, c]⟩) (p : Fin a) (k : Fin b) (d : Fin c) (q : Fin m)
    (hq : q.val = p.val * b + k.val) : shapeCast ⟨3, ![a, b, c]⟩ x h (ix3 p k d) = x (ix2 q d) :=
  shapeCast_apply x h _ _ (by
    rw [Shape.rowMajor_val_three, Shape.rowMajor_val_two]
    show q.val * c + d.val = (p.val * b + k.val) * c + d.val
    rw [hq])

/-- An `[a, c]` array given a unit middle axis reads, at `(p, u, d)`, the operand at `(p, d)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- An `[a, 1, c]` array spread over `[a, b, c]` reads, at `(p, k, d)`, the operand at `(p, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (k : Fin b) (d : Fin c) :
    broadcastTo ⟨3, ![a, b, c]⟩ v h (ix3 p k d) = v (ix3 p (0 : Fin 1) d) := by
  refine broadcastTo_apply v h (ix3 p k d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A `[c]` array given two leading unit axes reads, at `(u, v, d)`, the operand at `d`. -/
theorem shapeCast_c_11c_apply {c : ℕ} (x : (⟨1, ![c]⟩ : Shape).Idx → α) (h : (⟨1, ![c]⟩ : Shape).ShapeCasts ⟨3, ![1, 1, c]⟩)
    (u v : Fin 1) (d : Fin c) : shapeCast ⟨3, ![1, 1, c]⟩ x h (ix3 u v d) = x (ix1 d) :=
  shapeCast_apply x h _ _ (by
    have hu : u.val = 0 := by omega
    have hv : v.val = 0 := by omega
    rw [Shape.rowMajor_val_three, Shape.rowMajor_val_one]
    show d.val = (u.val * 1 + v.val) * c + d.val
    rw [hu, hv]; simp)

/-- A `[1, 1, c]` array spread over `[a, b, c]` reads, at `(p, k, d)`, the operand at `(0, 0, d)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (k : Fin b) (d : Fin c) :
    broadcastTo ⟨3, ![a, b, c]⟩ v h (ix3 p k d) = v (ix3 (0 : Fin 1) (0 : Fin 1) d) := by
  refine broadcastTo_apply v h (ix3 p k d) (ix3 (0 : Fin 1) (0 : Fin 1) d) fun ax => ?_
  match ax with
  | ⟨0, _⟩ => rfl
  | ⟨1, _⟩ => rfl
  | ⟨2, _⟩ =>
    show d.val = if c = 1 then 0 else d.val
    split
    · have := d.isLt; omega
    · rfl

end Layout

end Cert.MidAxis

end
-- ==== Proof.KernelPay.lean ====
/-
  The kernel body's arithmetic, entry by entry, at the ideal values.

  The body computes, from a block of 128 nodes (an input row, eight children's hidden rows and memory rows each) and four
  gates' parameters: the children's sum, each gate's affine form `((x·W + bW) + r·U) + bU`, the input and output gates'
  sigmoids, the update's hyperbolic tangent, one forget gate per child, and from them the new memory
  `c = i · u + Σ_k f_k · c_k` and the new hidden state `h = o · tanh c`. Here each of those vectors is read at one index:
  a format change is the identity, a matrix product into the zero accumulator is the sum over the contracted coordinate,
  a sum over the children's axis is the sum over the eight children, and a reshape or a broadcast only renames indices.
-/
import proofs.«163631_j34574486733551_1_alg».proof.Proof.Gen.KernelIdeal.Skeleton
import proofs.«163631_j34574486733551_1_alg».proof.Proof.Spec
import proofs.«163631_j34574486733551_1_alg».proof.Proof.LibRowOps
import proofs.«163631_j34574486733551_1_alg».proof.Proof.LibMidAxis
import Idealize.ShloMosaic.Lib.ValueLayout
import Idealize.ShloMosaic.Lib.Pipeline.Value
import Idealize.ShloMosaic.PureOps.Ideal.Laws

noncomputable section

namespace Cert.TreeCell.Body

open Idealize.ShloMosaic Idealize.ShloMosaic.ValueIdx
open Cert.KernelIdeal Cert.KernelIdeal.Gen Cert.MidAxis

/-! The index renamings (reshapes, broadcasts, the sum over the middle axis) are in LibMidAxis.lean. -/

/-! ## The building blocks at the kernel's shapes -/

/-- A `[128, 512] · [512, 512]` product into the zero accumulator, at `(p, g)`: the sum over the contracted coordinate. -/
theorem mm128 {φ₁ φ₂ : FTy} (lhs : FVec Ideal S128x512 φ₁) (rhs : FVec Ideal S512x512 φ₂) (p : Fin 128) (g : Fin 512) :
    matmul dot_S128x512_S512x512_S128x512_1_0_0_1_n_n none lhs rhs (constant (F := Ideal) S128x512 .f32 0x00000000#32) (ix2 p g)
      = ∑ d : Fin 512, lhs (ix2 p d) * rhs (ix2 d g) :=
  Cert.RowOps.matmul_apply dot_S128x512_S512x512_S128x512_1_0_0_1_n_n_wf none lhs rhs p g

/-- A `[1024, 512] · [512, 512]` product into the zero accumulator, at `(q, g)`: the sum over the contracted coordinate. -/
theorem mm1024 {φ₁ φ₂ : FTy} (lhs : FVec Ideal S1024x512 φ₁) (rhs : FVec Ideal S512x512 φ₂) (q : Fin 1024) (g : Fin 512) :
    matmul dot_S1024x512_S512x512_S1024x512_1_0_0_1_n_n none lhs rhs (constant (F := Ideal) S1024x512 .f32 0x00000000#32) (ix2 q g)
      = ∑ d : Fin 512, lhs (ix2 q d) * rhs (ix2 d g) :=
  Cert.RowOps.matmul_apply dot_S1024x512_S512x512_S1024x512_1_0_0_1_n_n_wf none lhs rhs q g

/-- A bias `[512]` kept as one row and spread over the 128 nodes reads, at `(p, g)`, its entry `g`. -/
theorem bias_apply (b : FVec Ideal S512 .f32) (p : Fin 128) (g : Fin 512) :
    broadcastTo S128x512 (shapeCast S1x512 b shapeCasts_S512_S1x512) broadcasts_S1x512_S128x512 (ix2 p g) = b (ix1 g) :=
  (broadcastTo_1b_ab_apply _ _ p g).trans (shapeCast_a_1a_apply b _ 0 g)

/-- The children's sum: the kernel's sum over the children's axis, at `(p, d)`, is the sum of node `p`'s child rows at `d`. -/
theorem kids_sum_apply (x1 : Vec Ideal S128x8x512 .f32) (p : Fin 128) (d : Fin 512) :
    k0_pay4 x1 (ix2 p d) = kidsSum (kidsOf x1 p) d := by
  unfold k0_pay4
  refine (truncf_apply (φ := .f32) (ψ := .bf16) _ bitsLt_bf16_f32 (ix2 p d)).trans ?_
  exact midSum_apply (φ := .f32) x1 _ _ _ _ p d

/-! ## A gate's affine form -/

/-- The vector `((x·W + bW) + r·U) + bU` as the body builds it from a block `xb` of input rows and a block `hb` of hidden rows. -/
def affine (xb hb : FVec Ideal S128x512 .bf16) (W U : FVec Ideal S512x512 .f32) (bW bU : FVec Ideal S512 .f32) :
    FVec Ideal S128x512 .f32 :=
  addf (addf (addf
        (matmul dot_S128x512_S512x512_S128x512_1_0_0_1_n_n none xb (truncf .bf16 W bitsLt_bf16_f32) (constant (F := Ideal) S128x512 .f32 0x00000000#32))
        (broadcastTo S128x512 (shapeCast S1x512 bW shapeCasts_S512_S1x512) broadcasts_S1x512_S128x512))
      (matmul dot_S128x512_S512x512_S128x512_1_0_0_1_n_n none hb (truncf .bf16 U bitsLt_bf16_f32) (constant (F := Ideal) S128x512 .f32 0x00000000#32)))
    (broadcastTo S128x512 (shapeCast S1x512 bU shapeCasts_S512_S1x512) broadcasts_S1x512_S128x512)

/-- It is the gate's affine form of the two blocks' rows `p`. -/
theorem affine_apply (xb hb : FVec Ideal S128x512 .bf16) (W U : FVec Ideal S512x512 .f32) (bW bU : FVec Ideal S512 .f32)
    (p : Fin 128) (g : Fin 512) :
    affine xb hb W U bW bU (ix2 p g) = Gate.lin ⟨W, bW, U, bU⟩ (fun d => xb (ix2 p d)) (fun d => hb (ix2 p d)) g := by
  unfold affine Gate.lin
  exact congrArg₂ (· + ·) (congrArg₂ (· + ·) (congrArg₂ (· + ·) (mm128 xb _ p g) (bias_apply bW p g)) (mm128 hb _ p g))
    (bias_apply bU p g)

/-- With the body's own two blocks, the input rows and the children's sums: the gate's affine form at node `p`. -/
theorem affine_std (x0 : Vec Ideal S128x512 .f32) (x1 : Vec Ideal S128x8x512 .f32) (W U : FVec Ideal S512x512 .f32)
    (bW bU : FVec Ideal S512 .f32) (p : Fin 128) (g : Fin 512) :
    affine (k0_pay3 x0) (k0_pay4 x1) W U bW bU (ix2 p g) = Gate.lin ⟨W, bW, U, bU⟩ (rowOf x0 p) (kidsSum (kidsOf x1 p)) g := by
  have e : (fun d : Fin 512 => (k0_pay4 x1 (ix2 p d) : EReal)) = kidsSum (kidsOf x1 p) := funext fun d => kids_sum_apply x1 p d
  exact (affine_apply (k0_pay3 x0) (k0_pay4 x1) W U bW bU p g).trans
    (congrArg (fun r : Row => Gate.lin ⟨W, bW, U, bU⟩ (rowOf x0 p) r g) e)

/-- The input gate's payload is the sigmoid of its affine form … -/
theorem pay5_eq (x0 : Vec Ideal S128x512 .f32) (x1 : Vec Ideal S128x8x512 .f32) (W U : Vec Ideal S512x512 .f32)
    (bW bU : Vec Ideal S512 .f32) : k0_pay5 x0 x1 W U bW bU = logistic (affine (k0_pay3 x0) (k0_pay4 x1) W U bW bU) := rfl

/-- … the output gate's two payloads together likewise … -/
theorem pay67_eq (x0 : Vec Ideal S128x512 .f32) (x1 : Vec Ideal S128x8x512 .f32) (W U : Vec Ideal S512x512 .f32)
    (bW bU : Vec Ideal S512 .f32) :
    k0_pay7 (k0_pay6 x0 x1 W U bW) bU = logistic (affine (k0_pay3 x0) (k0_pay4 x1) W U bW bU) := rfl

/-- … and the update's payload is the input gate times the hyperbolic tangent of the update's affine form. -/
theorem pay8_eq (v4 v5 : FVec Ideal S128x512 .bf16) (v21 : FVec Ideal S128x512 .f32) (W U : Vec Ideal S512x512 .f32)
    (bW bU : Vec Ideal S512 .f32) : k0_pay8 v4 v5 v21 W U bW bU = mulf v21 (tanh (affine v4 v5 W U bW bU)) := rfl

/-! ## The forget gates -/

/-- One child's forget gate times its memory: at `(p, k, g)` the sigmoid of the forget gate's affine form of the input row
    and child `k`'s hidden row, times child `k`'s memory. The children's rows reach the product flattened to
    `[1024, 512]` (row `p · 8 + k`) and come back; the input part and the second bias are spread over the eight children. -/
theorem pay9_apply (x1 x2 : Vec Ideal S128x8x512 .f32) (v4 : FVec Ideal S128x512 .bf16) (W U : Vec Ideal S512x512 .f32)
    (bW bU : Vec Ideal S512 .f32) (p : Fin 128) (k : Fin 8) (g : Fin 512) :
    k0_pay9 x1 x2 v4 W U bW bU (ix3 p k g)
      = Ideal.logistic (Gate.lin ⟨W, bW, U, bU⟩ (fun d => v4 (ix2 p d)) (kidsOf x1 p k) g) * x2 (ix3 p k g) := by
  have hq : p.val * 8 + k.val < 1024 := by have := p.isLt; have := k.isLt; omega
  unfold k0_pay9 Gate.lin
  refine congrArg₂ (· * ·) (congrArg Ideal.logistic ?_) rfl
  refine congrArg₂ (· + ·) (congrArg₂ (· + ·) ?_ ?_) ?_
  · refine (broadcastTo_a1c_abc_apply _ _ p k g).trans ?_
    refine (shapeCast_ac_a1c_apply _ _ p 0 g).trans ?_
    exact congrArg₂ (· + ·) (mm128 v4 _ p g) (bias_apply bW p g)
  · refine (shapeCast_mc_abc_apply _ _ p k g ⟨p.val * 8 + k.val, hq⟩ rfl).trans ?_
    refine (mm1024 _ _ ⟨p.val * 8 + k.val, hq⟩ g).trans ?_
    refine Finset.sum_congr rfl fun d _ => congrArg₂ (· * ·) ?_ rfl
    exact shapeCast_abc_mc_apply _ _ p k d ⟨p.val * 8 + k.val, hq⟩ rfl
  · exact (broadcastTo_11c_abc_apply _ _ p k g).trans (shapeCast_c_11c_apply bU _ 0 0 g)

/-! ## The new memory and the new hidden state -/

/-- The new memory at `(p, g)`. -/
theorem pay_c (x0 : Vec Ideal S128x512 .f32) (x1 x2 : Vec Ideal S128x8x512 .f32)
    (x3 : Vec Ideal S512x512 .f32) (x4 : Vec Ideal S512 .f32) (x5 : Vec Ideal S512x512 .f32) (x6 : Vec Ideal S512 .f32)
    (x7 : Vec Ideal S512x512 .f32) (x8 : Vec Ideal S512 .f32) (x9 : Vec Ideal S512x512 .f32) (x10 : Vec Ideal S512 .f32)
    (x15 : Vec Ideal S512x512 .f32) (x16 : Vec Ideal S512 .f32) (x17 : Vec Ideal S512x512 .f32) (x18 : Vec Ideal S512 .f32) (p : Fin 128) (g : Fin 512) :
    k0_pay1 (k0_pay8 (k0_pay3 x0) (k0_pay4 x1) (k0_pay5 x0 x1 x3 x5 x4 x6) x15 x17 x16 x18)
        (k0_pay9 x1 x2 (k0_pay3 x0) x7 x9 x8 x10) (ix2 p g)
      = cellC ⟨x3, x4, x5, x6⟩ ⟨x7, x8, x9, x10⟩ ⟨x15, x16, x17, x18⟩ (rowOf x0 p) (kidsOf x1 p) (kidsOf x2 p) g := by
  rw [pay8_eq, pay5_eq]
  unfold k0_pay1 cellC
  refine congrArg₂ (· + ·) ?_ ?_
  · exact congrArg₂ (· * ·) (congrArg Ideal.logistic (affine_std x0 x1 x3 x5 x4 x6 p g))
      (congrArg Ideal.tanh (affine_std x0 x1 x15 x17 x16 x18 p g))
  · refine (midSum_apply (φ := .f32) _ _ _ _ _ p g).trans ?_
    exact Finset.sum_congr rfl fun k _ => pay9_apply x1 x2 (k0_pay3 x0) x7 x9 x8 x10 p k g

/-- The new hidden state at `(p, g)`. -/
theorem pay_h (x0 : Vec Ideal S128x512 .f32) (x1 x2 : Vec Ideal S128x8x512 .f32)
    (x3 : Vec Ideal S512x512 .f32) (x4 : Vec Ideal S512 .f32) (x5 : Vec Ideal S512x512 .f32) (x6 : Vec Ideal S512 .f32)
    (x7 : Vec Ideal S512x512 .f32) (x8 : Vec Ideal S512 .f32) (x9 : Vec Ideal S512x512 .f32) (x10 : Vec Ideal S512 .f32)
    (x11 : Vec Ideal S512x512 .f32) (x12 : Vec Ideal S512 .f32) (x13 : Vec Ideal S512x512 .f32) (x14 : Vec Ideal S512 .f32)
    (x15 : Vec Ideal S512x512 .f32) (x16 : Vec Ideal S512 .f32) (x17 : Vec Ideal S512x512 .f32) (x18 : Vec Ideal S512 .f32)
    (p : Fin 128) (g : Fin 512) :
    k0_pay2 (k0_pay7 (k0_pay6 x0 x1 x11 x13 x12) x14)
        (k0_pay8 (k0_pay3 x0) (k0_pay4 x1) (k0_pay5 x0 x1 x3 x5 x4 x6) x15 x17 x16 x18)
        (k0_pay9 x1 x2 (k0_pay3 x0) x7 x9 x8 x10) (ix2 p g)
      = cellH ⟨x3, x4, x5, x6⟩ ⟨x7, x8, x9, x10⟩ ⟨x11, x12, x13, x14⟩ ⟨x15, x16, x17, x18⟩ (rowOf x0 p) (kidsOf x1 p)
          (kidsOf x2 p) g := by
  rw [pay67_eq]
  unfold k0_pay2 cellH
  exact congrArg₂ (· * ·) (congrArg Ideal.logistic (affine_std x0 x1 x11 x13 x12 x14 p g))
    (congrArg Ideal.tanh (pay_c x0 x1 x2 x3 x4 x5 x6 x7 x8 x9 x10 x15 x16 x17 x18 p g))

/-- The new memories of the block, as an array. -/
theorem pay_c_blk (x0 : Vec Ideal S128x512 .f32) (x1 x2 : Vec Ideal S128x8x512 .f32)
    (x3 : Vec Ideal S512x512 .f32) (x4 : Vec Ideal S512 .f32) (x5 : Vec Ideal S512x512 .f32) (x6 : Vec Ideal S512 .f32)
    (x7 : Vec Ideal S512x512 .f32) (x8 : Vec Ideal S512 .f32) (x9 : Vec Ideal S512x512 .f32) (x10 : Vec Ideal S512 .f32)
    (x15 : Vec Ideal S512x512 .f32) (x16 : Vec Ideal S512 .f32) (x17 : Vec Ideal S512x512 .f32) (x18 : Vec Ideal S512 .f32) :
    k0_pay1 (k0_pay8 (k0_pay3 x0) (k0_pay4 x1) (k0_pay5 x0 x1 x3 x5 x4 x6) x15 x17 x16 x18)
        (k0_pay9 x1 x2 (k0_pay3 x0) x7 x9 x8 x10)
      = arrC (n := 128) ⟨x3, x4, x5, x6⟩ ⟨x7, x8, x9, x10⟩ ⟨x15, x16, x17, x18⟩ x0 x1 x2 := by
  funext j
  rw [eq_ix2 j]
  exact pay_c x0 x1 x2 x3 x4 x5 x6 x7 x8 x9 x10 x15 x16 x17 x18 (j 0) (j 1)

/-- The new hidden states of the block, as an array. -/
theorem pay_h_blk (x0 : Vec Ideal S128x512 .f32) (x1 x2 : Vec Ideal S128x8x512 .f32)
    (x3 : Vec Ideal S512x512 .f32) (x4 : Vec Ideal S512 .f32) (x5 : Vec Ideal S512x512 .f32) (x6 : Vec Ideal S512 .f32)
    (x7 : Vec Ideal S512x512 .f32) (x8 : Vec Ideal S512 .f32) (x9 : Vec Ideal S512x512 .f32) (x10 : Vec Ideal S512 .f32)
    (x11 : Vec Ideal S512x512 .f32) (x12 : Vec Ideal S512 .f32) (x13 : Vec Ideal S512x512 .f32) (x14 : Vec Ideal S512 .f32)
    (x15 : Vec Ideal S512x512 .f32) (x16 : Vec Ideal S512 .f32) (x17 : Vec Ideal S512x512 .f32) (x18 : Vec Ideal S512 .f32) :
    k0_pay2 (k0_pay7 (k0_pay6 x0 x1 x11 x13 x12) x14)
        (k0_pay8 (k0_pay3 x0) (k0_pay4 x1) (k0_pay5 x0 x1 x3 x5 x4 x6) x15 x17 x16 x18)
        (k0_pay9 x1 x2 (k0_pay3 x0) x7 x9 x8 x10)
      = arrH (n := 128) ⟨x3, x4, x5, x6⟩ ⟨x7, x8, x9, x10⟩ ⟨x11, x12, x13, x14⟩ ⟨x15, x16, x17, x18⟩ x0 x1 x2 := by
  funext j
  rw [eq_ix2 j]
  exact pay_h x0 x1 x2 x3 x4 x5 x6 x7 x8 x9 x10 x11 x12 x13 x14 x15 x16 x17 x18 (j 0) (j 1)

end Cert.TreeCell.Body

end
-- ==== Proof.KernelRun.lean ====
/-
  The kernel's run, read as values.

  At point `t` the body turns the blocks of 128 nodes into the cell's new memories and hidden states of those nodes
  (the body's arithmetic, read entry by entry), and those blocks are rows `128 t … 128 t + 127` of the arrays; so each
  write-back is block `t` of one whole-array function of the arguments, the 64 blocks tile each result, and the two
  result arrays end holding the cell's outputs for all 8192 nodes. The lines after the region stack them.
-/
import proofs.«163631_j34574486733551_1_alg».proof.Proof.Gen.KernelIdeal.Frame
import proofs.«163631_j34574486733551_1_alg».proof.Proof.Spec
import proofs.«163631_j34574486733551_1_alg».proof.Proof.Blocks
import proofs.«163631_j34574486733551_1_alg».proof.Proof.KernelPay
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.TreeCell.Run

open Cert.KernelIdeal Cert.KernelIdeal.Gen Cert.TreeCell Cert.TreeCell.Blocks

variable (m : (ℓ : Loc nD τ sig) → Buf (Elt Ideal) ℓ) (ρ : Dev nD → PrngReg)

/-- The arguments as the program is launched with them: the inputs, the children's hidden and memory rows. -/
abbrev aX (c : Dev nD) : FVec Ideal ⟨2, ![8192, 512]⟩ .f32 := m ((c : Thread nD τ).loc main_arg0)
abbrev aH (c : Dev nD) : FVec Ideal ⟨3, ![8192, 8, 512]⟩ .f32 := m ((c : Thread nD τ).loc main_arg1)
abbrev aC (c : Dev nD) : FVec Ideal ⟨3, ![8192, 8, 512]⟩ .f32 := m ((c : Thread nD τ).loc main_arg2)
/-- The four gates' parameters (input, forget, output, update), each as launched. -/
abbrev gI (c : Dev nD) : Gate := ⟨m ((c : Thread nD τ).loc main_arg3), m ((c : Thread nD τ).loc main_arg4), m ((c : Thread nD τ).loc main_arg5), m ((c : Thread nD τ).loc main_arg6)⟩
abbrev gF (c : Dev nD) : Gate := ⟨m ((c : Thread nD τ).loc main_arg7), m ((c : Thread nD τ).loc main_arg8), m ((c : Thread nD τ).loc main_arg9), m ((c : Thread nD τ).loc main_arg10)⟩
abbrev gO (c : Dev nD) : Gate := ⟨m ((c : Thread nD τ).loc main_arg11), m ((c : Thread nD τ).loc main_arg12), m ((c : Thread nD τ).loc main_arg13), m ((c : Thread nD τ).loc main_arg14)⟩
abbrev gU (c : Dev nD) : Gate := ⟨m ((c : Thread nD τ).loc main_arg15), m ((c : Thread nD τ).loc main_arg16), m ((c : Thread nD τ).loc main_arg17), m ((c : Thread nD τ).loc main_arg18)⟩

/-- The cell's new memories of all 8192 nodes, as one function of the arguments. -/
def resC (c : Dev nD) : FVec Ideal ⟨2, ![8192, 512]⟩ .f32 := arrC (gI m c) (gF m c) (gU m c) (aX m c) (aH m c) (aC m c)
/-- The cell's new hidden states of all 8192 nodes. -/
def resH (c : Dev nD) : FVec Ideal ⟨2, ![8192, 512]⟩ .f32 := arrH (gI m c) (gF m c) (gO m c) (gU m c) (aX m c) (aH m c) (aC m c)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- What point `t` writes back to the memory result is block `t` of the cell's memories of all nodes: the body's
    value on the point's blocks is the cell on those 128 nodes, and the blocks are rows `128 t …` of the arrays. -/
theorem flushed20_eq (c : Dev nD) (t : Fin cfg0.N) :
    (dats m 0 c).flushed 20 t = ((cfg0.win 20).blk t).view.read (Elt Ideal) (resC m c) := by
  show (cfg0.win 20).cut (grid0.coords t) ((dats m 0 c).after 20 t) = _
  rw [after0_20]
  unfold out0_20
  rw [View.canon_unit_zero hz2]
  simp only [View.ld_unit_zero (S := S128x512) hz2, View.ld_unit_zero (S := S128x8x512) hz3, View.ld_unit_zero (S := S512x512) hz2, View.ld_unit_zero (S := S512) hz1]
  refine (congrArg ((cfg0.win 20).cut (grid0.coords t)) (Body.pay_c_blk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 15 t) (iblk m c 16 t) (iblk m c 17 t) (iblk m c 18 t))).trans ?_
  funext j
  obtain ⟨p, g, rfl⟩ : ∃ (p : Fin 128) (g : Fin 512), j = ix2 p g := ⟨j 0, j 1, eq_ix2 j⟩
  refine Eq.trans ?_ (out20_read (F := Ideal) c t (resC m c) p g).symm
  show arrC (n := 128) _ _ _ _ _ _ (ix2 p g) = resC m c (ix2 ⟨t.val * 128 + p.val, row_lt t p⟩ g)
  unfold resC
  rw [arrC_apply, arrC_apply]
  have hx : rowOf (n := 128) (iblk m c 0 t) p = rowOf (aX m c) ⟨t.val * 128 + p.val, row_lt t p⟩ :=
    funext fun d => xblk_apply m c t p d
  have hh : kidsOf (n := 128) (iblk m c 1 t) p = kidsOf (aH m c) ⟨t.val * 128 + p.val, row_lt t p⟩ :=
    funext fun k => funext fun d => hblk_apply m c t p k d
  have hc : kidsOf (n := 128) (iblk m c 2 t) p = kidsOf (aC m c) ⟨t.val * 128 + p.val, row_lt t p⟩ :=
    funext fun k => funext fun d => cblk_apply m c t p k d
  have gi : Gate.mk (iblk m c 3 t) (iblk m c 4 t) (iblk m c 5 t) (iblk m c 6 t) = gI m c := by
    rw [mat3_blk m c t, vec4_blk m c t, mat5_blk m c t, vec6_blk m c t]; rfl
  have gf : Gate.mk (iblk m c 7 t) (iblk m c 8 t) (iblk m c 9 t) (iblk m c 10 t) = gF m c := by
    rw [mat7_blk m c t, vec8_blk m c t, mat9_blk m c t, vec10_blk m c t]; rfl
  have gu : Gate.mk (iblk m c 15 t) (iblk m c 16 t) (iblk m c 17 t) (iblk m c 18 t) = gU m c := by
    rw [mat15_blk m c t, vec16_blk m c t, mat17_blk m c t, vec18_blk m c t]; rfl
  rw [hx, hh, hc, gi, gf, gu]

/-- What point `t` writes back to the hidden-state result is block `t` of the cell's hidden states of all nodes: the body's
    value on the point's blocks is the cell on those 128 nodes, and the blocks are rows `128 t …` of the arrays. -/
theorem flushed19_eq (c : Dev nD) (t : Fin cfg0.N) :
    (dats m 0 c).flushed 19 t = ((cfg0.win 19).blk t).view.read (Elt Ideal) (resH m c) := by
  show (cfg0.win 19).cut (grid0.coords t) ((dats m 0 c).after 19 t) = _
  rw [after0_19]
  unfold out0_19
  rw [View.canon_unit_zero hz2]
  simp only [View.ld_unit_zero (S := S128x512) hz2, View.ld_unit_zero (S := S128x8x512) hz3, View.ld_unit_zero (S := S512x512) hz2, View.ld_unit_zero (S := S512) hz1]
  refine (congrArg ((cfg0.win 19).cut (grid0.coords t)) (Body.pay_h_blk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t))).trans ?_
  funext j
  obtain ⟨p, g, rfl⟩ : ∃ (p : Fin 128) (g : Fin 512), j = ix2 p g := ⟨j 0, j 1, eq_ix2 j⟩
  refine Eq.trans ?_ (out19_read (F := Ideal) c t (resH m c) p g).symm
  show arrH (n := 128) _ _ _ _ _ _ _ (ix2 p g) = resH m c (ix2 ⟨t.val * 128 + p.val, row_lt t p⟩ g)
  unfold resH
  rw [arrH_apply, arrH_apply]
  have hx : rowOf (n := 128) (iblk m c 0 t) p = rowOf (aX m c) ⟨t.val * 128 + p.val, row_lt t p⟩ :=
    funext fun d => xblk_apply m c t p d
  have hh : kidsOf (n := 128) (iblk m c 1 t) p = kidsOf (aH m c) ⟨t.val * 128 + p.val, row_lt t p⟩ :=
    funext fun k => funext fun d => hblk_apply m c t p k d
  have hc : kidsOf (n := 128) (iblk m c 2 t) p = kidsOf (aC m c) ⟨t.val * 128 + p.val, row_lt t p⟩ :=
    funext fun k => funext fun d => cblk_apply m c t p k d
  have gi : Gate.mk (iblk m c 3 t) (iblk m c 4 t) (iblk m c 5 t) (iblk m c 6 t) = gI m c := by
    rw [mat3_blk m c t, vec4_blk m c t, mat5_blk m c t, vec6_blk m c t]; rfl
  have gf : Gate.mk (iblk m c 7 t) (iblk m c 8 t) (iblk m c 9 t) (iblk m c 10 t) = gF m c := by
    rw [mat7_blk m c t, vec8_blk m c t, mat9_blk m c t, vec10_blk m c t]; rfl
  have go : Gate.mk (iblk m c 11 t) (iblk m c 12 t) (iblk m c 13 t) (iblk m c 14 t) = gO m c := by
    rw [mat11_blk m c t, vec12_blk m c t, mat13_blk m c t, vec14_blk m c t]; rfl
  have gu : Gate.mk (iblk m c 15 t) (iblk m c 16 t) (iblk m c 17 t) (iblk m c 18 t) = gU m c := by
    rw [mat15_blk m c t, vec16_blk m c t, mat17_blk m c t, vec18_blk m c t]; rfl
  rw [hx, hh, hc, gi, gf, go, gu]

/-- The memory result after the run: the cell's memories of all 8192 nodes (the 64 blocks tile the array). -/
theorem final20 (c : Dev nD) : (dats m 0 c).arrAt 20 cfg0.N = resC m c :=
  (dats m 0 c).arrAt_eq_of_cover 20 (resC m c) (fun t _ => flushed20_eq m c t) cover20

/-- The hidden-state result after the run. -/
theorem final19 (c : Dev nD) : (dats m 0 c).arrAt 19 cfg0.N = resH m c :=
  (dats m 0 c).arrAt_eq_of_cover 19 (resH m c) (fun t _ => flushed19_eq m c t) cover19

/-- The two results stacked along a new leading axis: `[h; c]` as a `[2, 8192, 512]` array. -/
def stack (h cc : FVec Ideal ⟨2, ![8192, 512]⟩ .f32) : FVec Ideal ⟨3, ![2, 8192, 512]⟩ .f32 :=
  concatenate S2x8192x512 0 [⟨S1x8192x512, broadcastInDim S1x8192x512 ![1, 2] bcast_S8192x512_S1x8192x512_1_2 h⟩,
    ⟨S1x8192x512, broadcastInDim S1x8192x512 ![1, 2] bcast_S8192x512_S1x8192x512_1_2 cc⟩] concatenates_S1x8192x512_S1x8192x512_S2x8192x512_d0

/-- The program's result: the lines after the region stack the two arrays the region left. -/
theorem tail_eq (c : Dev nD) :
    Pipeline.afterTail₀ cfgs (dats m) 0 (V0 m) [hostOps1] c main_v3 = stack (resH m c) (resC m c) := by
  unfold Pipeline.afterTail₀
  show StableHlo.after hostOps1 _ (Proc.devRef .tc main_v3) = _
  after_results
  have e19 : Pipeline.withArrays (cfgs 0).spec c (V0 m c) (fun w => (dats m 0 c).arrAt w (cfgs 0).N) (Proc.devRef .tc main_v0_0) = resH m c :=
    (Pipeline.withArrays_arr spec0 winFacts0.arr_inj c (V0 m c) (fun w => (dats m 0 c).arrAt w cfg0.N) 19).trans (final19 m c)
  have e20 : Pipeline.withArrays (cfgs 0).spec c (V0 m c) (fun w => (dats m 0 c).arrAt w (cfgs 0).N) (Proc.devRef .tc main_v0_1) = resC m c :=
    (Pipeline.withArrays_arr spec0 winFacts0.arr_inj c (V0 m c) (fun w => (dats m 0 c).arrAt w cfg0.N) 20).trans (final20 m c)
  rw [e19, e20]
  rfl

set_option maxHeartbeats 4000000 in
/-- The run, read: the result array holds the stacked cell outputs of all nodes, and the arguments are unchanged. -/
theorem run : θ_run defs (onTc (τ := τ) (main (F := Ideal))) ⟨m, fun _ => 0, ρ⟩ fun r => ∀ c : Dev nD,
      r.2.mem ((c : Thread nD τ).loc main_v3) = stack (resH m c) (resC m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).1 14).trans (((dats m 0 c).arrAt_in 14 rfl _).trans ((A_eq m c 14).trans (V_main_arg14 m c))),
      ((h c).1 15).trans (((dats m 0 c).arrAt_in 15 rfl _).trans ((A_eq m c 15).trans (V_main_arg15 m c))),
      ((h c).1 16).trans (((dats m 0 c).arrAt_in 16 rfl _).trans ((A_eq m c 16).trans (V_main_arg16 m c))),
      ((h c).1 17).trans (((dats m 0 c).arrAt_in 17 rfl _).trans ((A_eq m c 17).trans (V_main_arg17 m c))),
      ((h c).1 18).trans (((dats m 0 c).arrAt_in 18 rfl _).trans ((A_eq m c 18).trans (V_main_arg18 m c)))⟩)
    (run_main m ρ)

end Cert.TreeCell.Run

end
-- ==== Proof.lean ====
/-
  The child-sum tree cell as one fused kernel, against its plain array-program reference, over the extended reals.

  Both programs compute, for each of 8192 nodes with eight children each, the children's hidden sum, the input, output
  and update gates from the node's input and that sum, one forget gate per child from the node's input and the child's
  hidden row, the new memory `c = i · u + Σ_k f_k · c_k` and the new hidden state `h = o · tanh c`, and return the two
  stacked. The kernel does it 128 nodes at a time over a grid of 64 points, with its matrix products into zero
  accumulators and its inputs passed through a narrower float format on the way (the identity on the extended reals);
  the reference spells the sigmoid as `1 / (1 + e^(-y))`, which is the same function. Every sum is taken in the same
  association on both sides, so the two results are one function of the arguments (`Cert.TreeCell.arrH`, `arrC`),
  entry by entry: no algebraic law beyond re-indexing the sums is used, and the inputs' finiteness is not needed.
  The kernel's arithmetic is read in Proof/KernelPay.lean, its blocks in Proof/Blocks.lean, its run in
  Proof/KernelRun.lean; the reference's stages in Proof/RefSpec.lean; the specification is Proof/Spec.lean.
-/
import proofs.«163631_j34574486733551_1_alg».proof.Defs
import proofs.«163631_j34574486733551_1_alg».proof.Proof.Gen.Kernel
import proofs.«163631_j34574486733551_1_alg».proof.Proof.Gen.Kernel.Skeleton
import proofs.«163631_j34574486733551_1_alg».proof.Proof.Gen.Kernel.Launch
import proofs.«163631_j34574486733551_1_alg».proof.Proof.Gen.Kernel.Points
import proofs.«163631_j34574486733551_1_alg».proof.Proof.Gen.Kernel.Frame
import proofs.«163631_j34574486733551_1_alg».proof.Proof.Gen.KernelIdeal
import proofs.«163631_j34574486733551_1_alg».proof.Proof.Gen.KernelIdeal.Skeleton
import proofs.«163631_j34574486733551_1_alg».proof.Proof.Gen.KernelIdeal.Launch
import proofs.«163631_j34574486733551_1_alg».proof.Proof.Gen.KernelIdeal.Points
import proofs.«163631_j34574486733551_1_alg».proof.Proof.Gen.KernelIdeal.Frame
import proofs.«163631_j34574486733551_1_alg».proof.Proof.Gen.ReferenceIdeal
import proofs.«163631_j34574486733551_1_alg».proof.Proof.Gen.ReferenceIdeal.Run
import proofs.«163631_j34574486733551_1_alg».proof.Proof.Gen.ReferenceIdeal.Read
import proofs.«163631_j34574486733551_1_alg».proof.Proof.Gen.Pre_finite_inputs
import proofs.«163631_j34574486733551_1_alg».proof.Proof.Spec
import proofs.«163631_j34574486733551_1_alg».proof.Proof.RefSpec
import proofs.«163631_j34574486733551_1_alg».proof.Proof.KernelRun
import Idealize.ShloMosaic.Adequacy
import Idealize.ShloMosaic.Init

noncomputable section

namespace Cert.Proof

open Idealize.ShloMosaic Idealize.SL.Sem

/-- The word-level kernel terminates, faults nowhere and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, both programs end with the stacked cell outputs of all nodes: the kernel by its run read
    as values, the reference by its stages read at an index, both against the one specification. -/
theorem algebraic : Cert.algebraic_KernelIdeal_ReferenceIdeal := by
  intro m ρ m' ρ' _ hagree
  refine ⟨fun c => Cert.TreeCell.Run.stack (Cert.TreeCell.Run.resH m c) (Cert.TreeCell.Run.resC m c),
    Cert.TreeCell.Run.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18⟩ := hagree c
  rw [Cert.ReferenceIdeal.Read.val_main_v66_eq]
  unfold Cert.ReferenceIdeal.Read.val_main_v66 Cert.ReferenceIdeal.Read.val_main_v64 Cert.ReferenceIdeal.Read.val_main_v65
  rw [Cert.TreeCell.Ref.ref_h_arr, Cert.TreeCell.Ref.ref_c_arr]
  rw [h0, h1, h2, h3, h4, h5, h6, h7, h8, h9, h10, h11, h12, h13, h14, h15, h16, h17, h18]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
